-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x768x2048 : S_.BroadcastsInDim S64x768x2048 (![] : Fin 0 → Fin S64x768x2048.rank)
  reducesTo_S64x768x2048_S_d0_1_2 : S64x768x2048.ReducesTo [0, 1, 2] S_
  bcast_S_S64x2048x768 : S_.BroadcastsInDim S64x2048x768 (![] : Fin 0 → Fin S64x2048x768.rank)
  reducesTo_S64x2048x768_S_d0_1_2 : S64x2048x768.ReducesTo [0, 1, 2] S_

variable [Facts]

def fn_part1 {F : FTy → Type} [FloatOps F] (main_arg4 : FVec F S64x2048x768 .f32) (main_v13 : IVec S_ 1) (main_v16 : IVec S64x768x2048 1) : IVec S_ 1 :=
  let main_c_5 : IVec S_ 1 := constantI S_ 1 1#1
  let main_v17 : IVec S_ 1 := (fun x v => Host.reduce IntOp.andi x v reducesTo_S64x768x2048_S_d0_1_2 h_S_) main_v16 main_c_5
  let main_v18 : IVec S_ 1 := andi main_v13 main_v17
  let main_v19 : FVec F S64x2048x768 .f32 := Host.absf main_arg4
  let main_cst_6 : FVec F S_ .f32 := constant S_ .f32 0x7F800000#32
  let main_v20 : FVec F S64x2048x768 .f32 := broadcastInDim S64x2048x768 ![] bcast_S_S64x2048x768 main_cst_6
  let main_v21 : IVec S64x2048x768 1 := cmpf .olt main_v19 main_v20
  let main_c_7 : IVec S_ 1 := constantI S_ 1 1#1
  let main_v22 : IVec S_ 1 := (fun x v => Host.reduce IntOp.andi x v reducesTo_S64x2048x768_S_d0_1_2 h_S_) main_v21 main_c_7
  let main_v23 : IVec S_ 1 := andi main_v18 main_v22
  main_v23

def fn {F : FTy → Type} [FloatOps F] (main_arg0 : FVec F S1024x2048 .f32) (main_arg1 : FVec F S1024x8 .f32) (main_arg2 : FVec F S64x768x2048 .f32) (main_arg3 : FVec F S64x768x2048 .f32) (main_arg4 : FVec F S64x2048x768 .f32) (main_arg5 : IVec S1024x8 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x768x2048 .f32 := Host.absf main_arg2
  let main_cst_2 : FVec F S_ .f32 := constant S_ .f32 0x7F800000#32
  let main_v10 : FVec F S64x768x2048 .f32 := broadcastInDim S64x768x2048 ![] bcast_S_S64x768x2048 main_cst_2
  let main_v11 : IVec S64x768x2048 1 := cmpf .olt main_v9 main_v10
  let main_c_3 : IVec S_ 1 := constantI S_ 1 1#1
  let main_v12 : IVec S_ 1 := (fun x v => Host.reduce IntOp.andi x v reducesTo_S64x768x2048_S_d0_1_2 h_S_) main_v11 main_c_3
  let main_v13 : IVec S_ 1 := andi main_v8 main_v12
  let main_v14 : FVec F S64x768x2048 .f32 := Host.absf main_arg3
  let main_cst_4 : FVec F S_ .f32 := constant S_ .f32 0x7F800000#32
  let main_v15 : FVec F S64x768x2048 .f32 := broadcastInDim S64x768x2048 ![] bcast_S_S64x768x2048 main_cst_4
  let main_v16 : IVec S64x768x2048 1 := cmpf .olt main_v14 main_v15
  fn_part1 (F := F) main_arg4 main_v13 main_v16
-- ==== Kernel.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024 : Shape := ⟨1, ![1024]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x257x2048 : Shape := ⟨3, ![64, 257, 2048]⟩
abbrev S8192x2048 : Shape := ⟨2, ![8192, 2048]⟩
abbrev S8192x2 : Shape := ⟨2, ![8192, 2]⟩
abbrev S64x256x2048 : Shape := ⟨3, ![64, 256, 2048]⟩
abbrev S1x256x2048 : Shape := ⟨3, ![1, 256, 2048]⟩
abbrev S1x768x2048 : Shape := ⟨3, ![1, 768, 2048]⟩
abbrev S1x2048x768 : Shape := ⟨3, ![1, 2048, 768]⟩
abbrev S256x2048 : Shape := ⟨2, ![256, 2048]⟩
abbrev S768x2048 : Shape := ⟨2, ![768, 2048]⟩
abbrev S2048x768 : Shape := ⟨2, ![2048, 768]⟩
abbrev S256x768 : Shape := ⟨2, ![256, 768]⟩

abbrev nBuf : Space → Nat
  | .hbm => 100
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S64x768x2048, .f32⟩
  | .hbm, ⟨3, _⟩ => ⟨S64x768x2048, .f32⟩
  | .hbm, ⟨4, _⟩ => ⟨S64x2048x768, .f32⟩
  | .hbm, ⟨5, _⟩ => ⟨S1024x8, .i32⟩
  | .hbm, ⟨6, _⟩ => ⟨S8192, .i32⟩
  | .hbm, ⟨7, _⟩ => ⟨S1024, .i32⟩
  | .hbm, ⟨8, _⟩ => ⟨S1024x8, .i32⟩
  | .hbm, ⟨9, _⟩ => ⟨S8192, .i32⟩
  | .hbm, ⟨10, _⟩ => ⟨S8192x1, .i32⟩
  | .hbm, ⟨11, _⟩ => ⟨S1x64, .i32⟩
  | .hbm, ⟨12, _⟩ => ⟨S8192x64, .i32⟩
  | .hbm, ⟨13, _⟩ => ⟨S8192x64, .i32⟩
  | .hbm, ⟨14, _⟩ => ⟨S8192x64, .i1⟩
  | .hbm, ⟨15, _⟩ => ⟨S8192x64, .i32⟩
  | .hbm, ⟨16, _⟩ => ⟨S_, .i32⟩
  | .hbm, ⟨17, _⟩ => ⟨S_, .i32⟩
  | .hbm, ⟨18, _⟩ => ⟨S8192x64, .i32⟩
  | .hbm, ⟨19, _⟩ => ⟨S8192x64, .i32⟩
  | .hbm, ⟨20, _⟩ => ⟨S_, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S64x257x2048, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x2048, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S64x257x2048, .f32⟩
  | .hbm, ⟨61, _⟩ => ⟨S64x256x2048, .f32⟩
  | .hbm, ⟨62, _⟩ => ⟨S64x256x2048, .bf16⟩
  | .hbm, ⟨63, _⟩ => ⟨S64x768x2048, .bf16⟩
  | .hbm, ⟨64, _⟩ => ⟨S64x768x2048, .bf16⟩
  | .hbm, ⟨65, _⟩ => ⟨S64x2048x768, .bf16⟩
  | .hbm, ⟨66, _⟩ => ⟨S64x256x2048, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S8192, .i32⟩
  | .hbm, ⟨82, _⟩ => ⟨S_, .i32⟩
  | .hbm, ⟨83, _⟩ => ⟨S8192, .i32⟩
  | .hbm, ⟨84, _⟩ => ⟨S8192, .i1⟩
  | .hbm, ⟨85, _⟩ => ⟨S_, .i32⟩
  | .hbm, ⟨86, _⟩ => ⟨S8192, .i32⟩
  | .hbm, ⟨87, _⟩ => ⟨S8192, .i32⟩
  | .hbm, ⟨88, _⟩ => ⟨S8192, .i32⟩
  | .hbm, ⟨89, _⟩ => ⟨S8192x1, .i32⟩
  | .hbm, ⟨90, _⟩ => ⟨S8192x1, .i32⟩
  | .hbm, ⟨91, _⟩ => ⟨S8192x2, .i32⟩
  | .hbm, ⟨92, _⟩ => ⟨S8192x2048, .f32⟩
  | .hbm, ⟨93, _⟩ => ⟨S8192x1, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S1024x2048, .f32⟩
  | .hbm, ⟨98, _⟩ => ⟨S8192x1, .i32⟩
  | .hbm, ⟨99, _⟩ => ⟨S1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x256x2048, .f32⟩
  | .local _ .vmem, ⟨9, _⟩ => ⟨S1x256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_call1_call0_c : Ref sig .tc := ⟨.hbm, 16, rfl⟩
abbrev main_call1_call0_v0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_call3_v0 : Ref sig .tc := ⟨.hbm, 69, rfl⟩
abbrev main_call3_v1 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x8_S8192 : S1024x8.ShapeCasts S8192
  bcast_S1024_S1024x8_0 : S1024.BroadcastsInDim S1024x8 (![0] : Fin 1 → Fin S1024x8.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x257x2048 : S_.BroadcastsInDim S64x257x2048 (![] : Fin 0 → Fin S64x257x2048.rank)
  concatenates_S8192x1_S8192x1_S8192x2_d1 : Shape.Concatenates [S8192x1, S8192x1] S8192x2 1
  slices_S64x257x2048_S64x256x2048_0_0_0 : S64x257x2048.Slices ![0, 0, 0] S64x256x2048
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  shapeCasts_S256x2048_S1x256x2048 : S256x2048.ShapeCasts S1x256x2048
  bcast_S8192x1_S8192x2048_0_1 : S8192x1.BroadcastsInDim S8192x2048 (![0, 1] : Fin 2 → Fin S8192x2048.rank)
  bcast_S_S1024x2048 : S_.BroadcastsInDim S1024x2048 (![] : Fin 0 → Fin S1024x2048.rank)
  gather_S1024x2048_S8192x1_S8192x2048_1_0_n_n_0_1_12048_wf : GatherDims.WF S1024x2048 S8192x1 S8192x2048 [1] [0] [] [0] [] 1 ![1, 2048]
  scatter_S64x257x2048_S8192x2_S8192x2048_1_01_01_1_wf : ScatterDims.WF S64x257x2048 S8192x2 S8192x2048 [1] [0, 1] [0, 1] 1
  dot_S256x2048_S768x2048_S256x768_1_1_0_0_n_n_wf : DotDims.WF S256x2048 S768x2048 S256x768 [1] [1] [0] [0] [] []
  dot_S256x768_S2048x768_S256x2048_1_1_0_0_n_n_wf : DotDims.WF S256x768 S2048x768 S256x2048 [1] [1] [0] [0] [] []
  gather_S64x256x2048_S8192x2_S8192x2048_1_01_n_n_01_1_112048_wf : GatherDims.WF S64x256x2048 S8192x2 S8192x2048 [1] [0, 1] [] [0, 1] [] 1 ![1, 1, 2048]
  scatter_S1024x2048_S8192x1_S8192x2048_1_0_0_1_wf : ScatterDims.WF S1024x2048 S8192x1 S8192x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .bf16 = 32 ∨ (Rect.block (s := S64x256x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x2048.size a ≤ S64x768x2048.size a
  hwx0_1 : ∀ i : grid0.Coords, EltTy.bits .bf16 = 32 ∨ (Rect.block (s := S64x768x2048) S1x768x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x2048.size a ≤ S64x768x2048.size a
  hwx0_2 : ∀ i : grid0.Coords, EltTy.bits .bf16 = 32 ∨ (Rect.block (s := S64x768x2048) S1x768x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x768.size a ≤ S64x2048x768.size a
  hwx0_3 : ∀ i : grid0.Coords, EltTy.bits .bf16 = 32 ∨ (Rect.block (s := S64x2048x768) S1x2048x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x256x2048.size a
  hwx0_4 : ∀ i : grid0.Coords, EltTy.bits .f32 = 32 ∨ (Rect.block (s := S64x256x2048) S1x256x2048.size (cc0_transform_4 i) (hinb0_4 i)).WholeWords (EltTy.packing .f32)

variable [Facts₀]

def gather_S1024x2048_S8192x1_S8192x2048_1_0_n_n_0_1_12048 : GatherDims S1024x2048 S8192x1 S8192x2048 where
  offsetDims := [1]
  collapsedSliceDims := [0]
  operandBatchingDims := []
  startIndicesBatchingDims := []
  startIndexMap := [0]
  indexVectorDim := 1
  sliceSizes := ![1, 2048]
  wf := gather_S1024x2048_S8192x1_S8192x2048_1_0_n_n_0_1_12048_wf
def scatter_S64x257x2048_S8192x2_S8192x2048_1_01_01_1 : ScatterDims S64x257x2048 S8192x2 S8192x2048 where
  updateWindowDims := [1]
  insertedWindowDims := [0, 1]
  scatterDimsToOperandDims := [0, 1]
  indexVectorDim := 1
  wf := scatter_S64x257x2048_S8192x2_S8192x2048_1_01_01_1_wf
def dot_S256x2048_S768x2048_S256x768_1_1_0_0_n_n : DotDims S256x2048 S768x2048 S256x768 where
  lhsContracting := [1]
  rhsContracting := [1]
  lhsNonContracting := [0]
  rhsNonContracting := [0]
  lhsBatch := []
  rhsBatch := []
  wf := dot_S256x2048_S768x2048_S256x768_1_1_0_0_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf
def scatter_S1024x2048_S8192x1_S8192x2048_1_0_0_1 : ScatterDims S1024x2048 S8192x1 S8192x2048 where
  updateWindowDims := [1]
  insertedWindowDims := [0]
  scatterDimsToOperandDims := [0]
  indexVectorDim := 1
  wf := scatter_S1024x2048_S8192x1_S8192x2048_1_0_0_1_wf

abbrev win0_0 : Pipeline.Window sig grid0 :=
  Pipeline.Window.ofSpec (Memref.whole main_v36) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x768x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x768x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x2048x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024 : Shape := ⟨1, ![1024]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x257x2048 : Shape := ⟨3, ![64, 257, 2048]⟩
abbrev S8192x2048 : Shape := ⟨2, ![8192, 2048]⟩
abbrev S8192x2 : Shape := ⟨2, ![8192, 2]⟩
abbrev S64x256x2048 : Shape := ⟨3, ![64, 256, 2048]⟩
abbrev S64x256x768 : Shape := ⟨3, ![64, 256, 768]⟩

abbrev nBuf : Space → Nat
  | .hbm => 108
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S64x768x2048, .f32⟩
  | .hbm, ⟨3, _⟩ => ⟨S64x768x2048, .f32⟩
  | .hbm, ⟨4, _⟩ => ⟨S64x2048x768, .f32⟩
  | .hbm, ⟨5, _⟩ => ⟨S1024x8, .i32⟩
  | .hbm, ⟨6, _⟩ => ⟨S8192, .i32⟩
  | .hbm, ⟨7, _⟩ => ⟨S1024, .i32⟩
  | .hbm, ⟨8, _⟩ => ⟨S1024x8, .i32⟩
  | .hbm, ⟨9, _⟩ => ⟨S8192, .i32⟩
  | .hbm, ⟨10, _⟩ => ⟨S8192x1, .i32⟩
  | .hbm, ⟨11, _⟩ => ⟨S1x64, .i32⟩
  | .hbm, ⟨12, _⟩ => ⟨S8192x64, .i32⟩
  | .hbm, ⟨13, _⟩ => ⟨S8192x64, .i32⟩
  | .hbm, ⟨14, _⟩ => ⟨S8192x64, .i1⟩
  | .hbm, ⟨15, _⟩ => ⟨S8192x64, .i32⟩
  | .hbm, ⟨16, _⟩ => ⟨S_, .i32⟩
  | .hbm, ⟨17, _⟩ => ⟨S_, .i32⟩
  | .hbm, ⟨18, _⟩ => ⟨S8192x64, .i32⟩
  | .hbm, ⟨19, _⟩ => ⟨S8192x64, .i32⟩
  | .hbm, ⟨20, _⟩ => ⟨S_, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S64x257x2048, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x2048, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S64x257x2048, .f32⟩
  | .hbm, ⟨61, _⟩ => ⟨S64x256x2048, .f32⟩
  | .hbm, ⟨62, _⟩ => ⟨S64x256x768, .f32⟩
  | .hbm, ⟨63, _⟩ => ⟨S64x256x768, .f32⟩
  | .hbm, ⟨64, _⟩ => ⟨S64x256x768, .f32⟩
  | .hbm, ⟨65, _⟩ => ⟨S64x256x768, .f32⟩
  | .hbm, ⟨66, _⟩ => ⟨S_, .f32⟩
  | .hbm, ⟨67, _⟩ => ⟨S64x256x768, .f32⟩
  | .hbm, ⟨68, _⟩ => ⟨S64x256x768, .f32⟩
  | .hbm, ⟨69, _⟩ => ⟨S_, .f32⟩
  | .hbm, ⟨70, _⟩ => ⟨S64x256x768, .f32⟩
  | .hbm, ⟨71, _⟩ => ⟨S64x256x768, .f32⟩
  | .hbm, ⟨72, _⟩ => ⟨S64x256x768, .f32⟩
  | .hbm, ⟨73, _⟩ => ⟨S64x256x768, .f32⟩
  | .hbm, ⟨74, _⟩ => ⟨S64x256x2048, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S_, .i32⟩
  | .hbm, ⟨91, _⟩ => ⟨S8192, .i32⟩
  | .hbm, ⟨92, _⟩ => ⟨S8192, .i1⟩
  | .hbm, ⟨93, _⟩ => ⟨S_, .i32⟩
  | .hbm, ⟨94, _⟩ => ⟨S8192, .i32⟩
  | .hbm, ⟨95, _⟩ => ⟨S8192, .i32⟩
  | .hbm, ⟨96, _⟩ => ⟨S8192, .i32⟩
  | .hbm, ⟨97, _⟩ => ⟨S8192x1, .i32⟩
  | .hbm, ⟨98, _⟩ => ⟨S8192x1, .i32⟩
  | .hbm, ⟨99, _⟩ => ⟨S8192x2, .i32⟩
  | .hbm, ⟨100, _⟩ => ⟨S8192x2048, .f32⟩
  | .hbm, ⟨101, _⟩ => ⟨S8192x1, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S1024x2048, .f32⟩
  | .hbm, ⟨106, _⟩ => ⟨S8192x1, .i32⟩
  | .hbm, ⟨107, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_call1_call0_c : Ref sig .tc := ⟨.hbm, 16, rfl⟩
abbrev main_call1_call0_v0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_call4_v0 : Ref sig .tc := ⟨.hbm, 77, rfl⟩
abbrev main_call4_v1 : Ref sig .tc := ⟨.hbm, 78, rfl⟩
abbrev main_v42 : Ref sig .tc := ⟨.hbm, 79, rfl⟩
abbrev main_c_10 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_13 : Ref sig .tc := ⟨.hbm, 90, rfl⟩
abbrev main_v50 : Ref sig .tc := ⟨.hbm, 91, rfl⟩
abbrev main_v51 : Ref sig .tc := ⟨.hbm, 92, rfl⟩
abbrev main_c_14 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩

abbrev nD : Nat := 1
abbrev τ : Topo := Topo.v7x

variable {F : FTy → Type} [FloatOps F]

class Facts₀ : Prop where
  shapeCasts_S1024x8_S8192 : S1024x8.ShapeCasts S8192
  bcast_S1024_S1024x8_0 : S1024.BroadcastsInDim S1024x8 (![0] : Fin 1 → Fin S1024x8.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x257x2048 : S_.BroadcastsInDim S64x257x2048 (![] : Fin 0 → Fin S64x257x2048.rank)
  concatenates_S8192x1_S8192x1_S8192x2_d1 : Shape.Concatenates [S8192x1, S8192x1] S8192x2 1
  slices_S64x257x2048_S64x256x2048_0_0_0 : S64x257x2048.Slices ![0, 0, 0] S64x256x2048
  bcast_S_S64x256x768 : S_.BroadcastsInDim S64x256x768 (![] : Fin 0 → Fin S64x256x768.rank)
  bcast_S8192x1_S8192x2048_0_1 : S8192x1.BroadcastsInDim S8192x2048 (![0, 1] : Fin 2 → Fin S8192x2048.rank)
  bcast_S_S1024x2048 : S_.BroadcastsInDim S1024x2048 (![] : Fin 0 → Fin S1024x2048.rank)
  gather_S1024x2048_S8192x1_S8192x2048_1_0_n_n_0_1_12048_wf : GatherDims.WF S1024x2048 S8192x1 S8192x2048 [1] [0] [] [0] [] 1 ![1, 2048]
  scatter_S64x257x2048_S8192x2_S8192x2048_1_01_01_1_wf : ScatterDims.WF S64x257x2048 S8192x2 S8192x2048 [1] [0, 1] [0, 1] 1
  dot_S64x256x2048_S64x768x2048_S64x256x768_2_2_1_1_0_0_wf : DotDims.WF S64x256x2048 S64x768x2048 S64x256x768 [2] [2] [1] [1] [0] [0]
  dot_S64x256x768_S64x2048x768_S64x256x2048_2_2_1_1_0_0_wf : DotDims.WF S64x256x768 S64x2048x768 S64x256x2048 [2] [2] [1] [1] [0] [0]
  gather_S64x256x2048_S8192x2_S8192x2048_1_01_n_n_01_1_112048_wf : GatherDims.WF S64x256x2048 S8192x2 S8192x2048 [1] [0, 1] [] [0, 1] [] 1 ![1, 1, 2048]
  scatter_S1024x2048_S8192x1_S8192x2048_1_0_0_1_wf : ScatterDims.WF S1024x2048 S8192x1 S8192x2048 [1] [0] [0] 1

variable [Facts₀]

def gather_S1024x2048_S8192x1_S8192x2048_1_0_n_n_0_1_12048 : GatherDims S1024x2048 S8192x1 S8192x2048 where
  offsetDims := [1]
  collapsedSliceDims := [0]
  operandBatchingDims := []
  startIndicesBatchingDims := []
  startIndexMap := [0]
  indexVectorDim := 1
  sliceSizes := ![1, 2048]
  wf := gather_S1024x2048_S8192x1_S8192x2048_1_0_n_n_0_1_12048_wf
def scatter_S64x257x2048_S8192x2_S8192x2048_1_01_01_1 : ScatterDims S64x257x2048 S8192x2 S8192x2048 where
  updateWindowDims := [1]
  insertedWindowDims := [0, 1]
  scatterDimsToOperandDims := [0, 1]
  indexVectorDim := 1
  wf := scatter_S64x257x2048_S8192x2_S8192x2048_1_01_01_1_wf
def dot_S64x256x2048_S64x768x2048_S64x256x768_2_2_1_1_0_0 : DotDims S64x256x2048 S64x768x2048 S64x256x768 where
  lhsContracting := [2]
  rhsContracting := [2]
  lhsNonContracting := [1]
  rhsNonContracting := [1]
  lhsBatch := [0]
  rhsBatch := [0]
  wf := dot_S64x256x2048_S64x768x2048_S64x256x768_2_2_1_1_0_0_wf
def dot_S64x256x768_S64x2048x768_S64x256x2048_2_2_1_1_0_0 : DotDims S64x256x768 S64x2048x768 S64x256x2048 where
  lhsContracting := [2]
  rhsContracting := [2]
  lhsNonContracting := [1]
  rhsNonContracting := [1]
  lhsBatch := [0]
  rhsBatch := [0]
  wf := dot_S64x256x768_S64x2048x768_S64x256x2048_2_2_1_1_0_0_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf
def scatter_S1024x2048_S8192x1_S8192x2048_1_0_0_1 : ScatterDims S1024x2048 S8192x1 S8192x2048 where
  updateWindowDims := [1]
  insertedWindowDims := [0]
  scatterDimsToOperandDims := [0]
  indexVectorDim := 1
  wf := scatter_S1024x2048_S8192x1_S8192x2048_1_0_0_1_wf

class Facts : Prop extends Facts₀ where

variable [Facts]
-- ==== Proof.RefOps.lean ====
/- The reference's @main as one list of its 102 host operations, in order: the operations of each function jax outlined
   (the one-hot, the running count, the two selects, silu) stand at its call, over the call's own buffers. Twice: as the
   printed functions spell them, over typed references (ops), and over the plain builders at the same buffers (opsP). -/
import proofs.«111336_j12481174962624_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's 102 operations, in order, as the printed functions spell them. -/
abbrev ops : List (HloOp τ sig (Elt F)) :=
  ( StableHlo.reshape main_arg5 main_v0 rfl shapeCasts_S1024x8_S8192
  :: StableHlo.nullary main_v1 (iotaInDim S1024 32 0)
  :: StableHlo.unary main_v1 main_v2 (broadcastInDim S1024x8 ![0] bcast_S1024_S1024x8_0 : (⟨S1024, .i32⟩ : BufTy).Contents (Elt F) → (⟨S1024x8, .i32⟩ : BufTy).Contents (Elt F))
  :: StableHlo.reshape main_v2 main_v3 rfl shapeCasts_S1024x8_S8192
  :: StableHlo.TRef.unary ((.of main_v0) : StableHlo.TRef sig ⟨S8192, .i32⟩) main_call0.v0 (broadcastInDim S8192x1 ![0] bcast_S8192_S8192x1_0)
  :: StableHlo.TRef.nullary main_call0.v1 (iotaInDim S1x64 32 1)
  :: StableHlo.TRef.unary main_call0.v0 main_call0.v2 (broadcastInDim S8192x64 ![0, 1] bcast_S8192x1_S8192x64_0_1)
  :: StableHlo.TRef.unary main_call0.v1 main_call0.v3 (broadcastInDim S8192x64 ![0, 1] bcast_S1x64_S8192x64_0_1)
  :: StableHlo.TRef.binary main_call0.v2 main_call0.v3 main_call0.v4 (cmpi .eq)
  :: StableHlo.TRef.unary main_call0.v4 main_call0.v5 (extui 32 · natLt_1_32)
  :: StableHlo.TRef.nullary main_call1.call0.c (constantI S_ 32 0#32)
  :: StableHlo.TRef.unary main_call1.call0.c main_call1.call0.v0 (broadcastInDim S_ ![] bcast_S_S_)
  :: StableHlo.TRef.binary (((.of main_v4) : StableHlo.TRef sig ⟨S8192x64, .i32⟩) : StableHlo.TRef sig ⟨S8192x64, .i32⟩) main_call1.call0.v0 main_call1.call0.v1 (fun x v => Host.reduceWindow IntOp.addi ![8192, 1] ![1, 1] ![8191, 0] ![0, 0] x v reduceWindows_S8192x64_S8192x64_w8192s1p8191_0_w1s1p0_0 h_S_)
  :: StableHlo.binary main_v5 main_v4 main_v6 (muli : (⟨S8192x64, .i32⟩ : BufTy).Contents (Elt F) → (⟨S8192x64, .i32⟩ : BufTy).Contents (Elt F) → (⟨S8192x64, .i32⟩ : BufTy).Contents (Elt F))
  :: StableHlo.nullary main_c (constantI S_ 32 0#32)
  :: StableHlo.binary main_v6 main_c main_v7 ((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F))
  :: StableHlo.nullary main_c_0 (constantI S_ 32 1#32)
  :: StableHlo.unary main_c_0 main_v8 (broadcastInDim S8192 ![] bcast_S_S8192 : (⟨S_, .i32⟩ : BufTy).Contents (Elt F) → (⟨S8192, .i32⟩ : BufTy).Contents (Elt F))
  :: StableHlo.binary main_v7 main_v8 main_v9 (subi : (⟨S8192, .i32⟩ : BufTy).Contents (Elt F) → (⟨S8192, .i32⟩ : BufTy).Contents (Elt F) → (⟨S8192, .i32⟩ : BufTy).Contents (Elt F))
  :: StableHlo.nullary main_c_1 (constantI S_ 32 256#32)
  :: StableHlo.unary main_c_1 main_v10 (broadcastInDim S8192 ![] bcast_S_S8192 : (⟨S_, .i32⟩ : BufTy).Contents (Elt F) → (⟨S8192, .i32⟩ : BufTy).Contents (Elt F))
  :: StableHlo.binary main_v9 main_v10 main_v11 (cmpi .slt : (⟨S8192, .i32⟩ : BufTy).Contents (Elt F) → (⟨S8192, .i32⟩ : BufTy).Contents (Elt F) → (⟨S8192, .i1⟩ : BufTy).Contents (Elt F))
  :: StableHlo.nullary main_c_2 (constantI S_ 32 256#32)
  :: StableHlo.TRef.unary ((.of main_c_2) : StableHlo.TRef sig ⟨S_, .i32⟩) main_call2.v0 id
  :: StableHlo.TRef.unary main_call2.v0 main_call2.v1 (broadcastInDim S8192 ![] bcast_S_S8192)
  :: StableHlo.TRef.ternary ((.of main_v11) : StableHlo.TRef sig ⟨S8192, .i1⟩) ((.of main_v9) : StableHlo.TRef sig ⟨S8192, .i32⟩) main_call2.v1 main_call2.v2 select
  :: StableHlo.nullary main_cst (constant S_ .f32 0x00000000#32)
  :: StableHlo.unary main_cst main_v13 (broadcastInDim S64x257x2048 ![] bcast_S_S64x257x2048 : (⟨S_, .f32⟩ : BufTy).Contents (Elt F) → (⟨S64x257x2048, .f32⟩ : BufTy).Contents (Elt F))
  :: StableHlo.nullary main_c_3 (constantI S_ 32 0#32)
  :: StableHlo.unary main_c_3 main_v14 (broadcastInDim S8192 ![] bcast_S_S8192 : (⟨S_, .i32⟩ : BufTy).Contents (Elt F) → (⟨S8192, .i32⟩ : BufTy).Contents (Elt F))
  :: StableHlo.binary main_v3 main_v14 main_v15 (cmpi .slt : (⟨S8192, .i32⟩ : BufTy).Contents (Elt F) → (⟨S8192, .i32⟩ : BufTy).Contents (Elt F) → (⟨S8192, .i1⟩ : BufTy).Contents (Elt F))
  :: StableHlo.nullary main_c_4 (constantI S_ 32 1024#32)
  :: StableHlo.unary main_c_4 main_v16 (broadcastInDim S8192 ![] bcast_S_S8192 : (⟨S_, .i32⟩ : BufTy).Contents (Elt F) → (⟨S8192, .i32⟩ : BufTy).Contents (Elt F))
  :: StableHlo.binary main_v3 main_v16 main_v17 (addi : (⟨S8192, .i32⟩ : BufTy).Contents (Elt F) → (⟨S8192, .i32⟩ : BufTy).Contents (Elt F) → (⟨S8192, .i32⟩ : BufTy).Contents (Elt F))
  :: StableHlo.ternary main_v15 main_v17 main_v3 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v18 main_v19 (broadcastInDim S8192x1 ![0] bcast_S8192_S8192x1_0 : (⟨S8192, .i32⟩ : BufTy).Contents (Elt F) → (⟨S8192x1, .i32⟩ : BufTy).Contents (Elt F))
  :: StableHlo.binary main_arg0 main_v19 main_v20 ((fun x i => Host.gather gather_S1024x2048_S8192x1_S8192x2048_1_0_n_n_0_1_12048 x i) : (⟨S1024x2048, .f32⟩ : BufTy).Contents (Elt F) → (⟨S8192x1, .i32⟩ : BufTy).Contents (Elt F) → (⟨S8192x2048, .f32⟩ : BufTy).Contents (Elt F))
  :: StableHlo.nullary main_c_5 (constantI S_ 32 0#32)
  :: StableHlo.unary main_c_5 main_v21 (broadcastInDim S8192 ![] bcast_S_S8192 : (⟨S_, .i32⟩ : BufTy).Contents (Elt F) → (⟨S8192, .i32⟩ : BufTy).Contents (Elt F))
  :: StableHlo.binary main_v0 main_v21 main_v22 (cmpi .slt : (⟨S8192, .i32⟩ : BufTy).Contents (Elt F) → (⟨S8192, .i32⟩ : BufTy).Contents (Elt F) → (⟨S8192, .i1⟩ : BufTy).Contents (Elt F))
  :: StableHlo.nullary main_c_6 (constantI S_ 32 64#32)
  :: StableHlo.unary main_c_6 main_v23 (broadcastInDim S8192 ![] bcast_S_S8192 : (⟨S_, .i32⟩ : BufTy).Contents (Elt F) → (⟨S8192, .i32⟩ : BufTy).Contents (Elt F))
  :: StableHlo.binary main_v0 main_v23 main_v24 (addi : (⟨S8192, .i32⟩ : BufTy).Contents (Elt F) → (⟨S8192, .i32⟩ : BufTy).Contents (Elt F) → (⟨S8192, .i32⟩ : BufTy).Contents (Elt F))
  :: StableHlo.ternary main_v22 main_v24 main_v0 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_7 (constantI S_ 32 0#32)
  :: StableHlo.unary main_c_7 main_v26 (broadcastInDim S8192 ![] bcast_S_S8192 : (⟨S_, .i32⟩ : BufTy).Contents (Elt F) → (⟨S8192, .i32⟩ : BufTy).Contents (Elt F))
  :: StableHlo.binary main_v12 main_v26 main_v27 (cmpi .slt : (⟨S8192, .i32⟩ : BufTy).Contents (Elt F) → (⟨S8192, .i32⟩ : BufTy).Contents (Elt F) → (⟨S8192, .i1⟩ : BufTy).Contents (Elt F))
  :: StableHlo.nullary main_c_8 (constantI S_ 32 257#32)
  :: StableHlo.unary main_c_8 main_v28 (broadcastInDim S8192 ![] bcast_S_S8192 : (⟨S_, .i32⟩ : BufTy).Contents (Elt F) → (⟨S8192, .i32⟩ : BufTy).Contents (Elt F))
  :: StableHlo.binary main_v12 main_v28 main_v29 (addi : (⟨S8192, .i32⟩ : BufTy).Contents (Elt F) → (⟨S8192, .i32⟩ : BufTy).Contents (Elt F) → (⟨S8192, .i32⟩ : BufTy).Contents (Elt F))
  :: StableHlo.ternary main_v27 main_v29 main_v12 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v25 main_v31 (broadcastInDim S8192x1 ![0] bcast_S8192_S8192x1_0 : (⟨S8192, .i32⟩ : BufTy).Contents (Elt F) → (⟨S8192x1, .i32⟩ : BufTy).Contents (Elt F))
  :: StableHlo.unary main_v30 main_v32 (broadcastInDim S8192x1 ![0] bcast_S8192_S8192x1_0 : (⟨S8192, .i32⟩ : BufTy).Contents (Elt F) → (⟨S8192x1, .i32⟩ : BufTy).Contents (Elt F))
  :: StableHlo.binary main_v31 main_v32 main_v33 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.ternary main_v13 main_v33 main_v20 main_v34 ((fun x i u => Host.scatterAdd scatter_S64x257x2048_S8192x2_S8192x2048_1_01_01_1 x i u) : (⟨S64x257x2048, .f32⟩ : BufTy).Contents (Elt F) → (⟨S8192x2, .i32⟩ : BufTy).Contents (Elt F) → (⟨S8192x2048, .f32⟩ : BufTy).Contents (Elt F) → (⟨S64x257x2048, .f32⟩ : BufTy).Contents (Elt F))
  :: StableHlo.unary main_v34 main_v35 ((extractStridedSlice S64x256x2048 ![0, 0, 0] · slices_S64x257x2048_S64x256x2048_0_0_0) : (⟨S64x257x2048, .f32⟩ : BufTy).Contents (Elt F) → (⟨S64x256x2048, .f32⟩ : BufTy).Contents (Elt F))
  :: StableHlo.binary main_v35 main_arg2 main_v36 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.binary main_v35 main_arg3 main_v37 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.TRef.unary ((.of main_v36) : StableHlo.TRef sig ⟨S64x256x768, .f32⟩) main_call3.v0 Host.negf
  :: StableHlo.TRef.unary main_call3.v0 main_call3.v1 Host.exp
  :: StableHlo.TRef.nullary main_call3.cst (constant S_ .f32 0x3F800000#32)
  :: StableHlo.TRef.unary main_call3.cst main_call3.v2 (broadcastInDim S64x256x768 ![] bcast_S_S64x256x768)
  :: StableHlo.TRef.binary main_call3.v2 main_call3.v1 main_call3.v3 addf
  :: StableHlo.TRef.nullary main_call3.cst_0 (constant S_ .f32 0x3F800000#32)
  :: StableHlo.TRef.unary main_call3.cst_0 main_call3.v4 (broadcastInDim S64x256x768 ![] bcast_S_S64x256x768)
  :: StableHlo.TRef.binary main_call3.v4 main_call3.v3 main_call3.v5 Host.divf
  :: StableHlo.TRef.binary ((.of main_v36) : StableHlo.TRef sig ⟨S64x256x768, .f32⟩) main_call3.v5 main_call3.v6 mulf
  :: StableHlo.binary main_v38 main_v37 main_v39 (mulf : (⟨S64x256x768, .f32⟩ : BufTy).Contents (Elt F) → (⟨S64x256x768, .f32⟩ : BufTy).Contents (Elt F) → (⟨S64x256x768, .f32⟩ : BufTy).Contents (Elt F))
  :: StableHlo.binary main_v39 main_arg4 main_v40 ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F))
  :: StableHlo.reshape main_arg1 main_v41 rfl shapeCasts_S1024x8_S8192
  :: StableHlo.nullary main_cst_9 (constant S_ .f32 0x00000000#32)
  :: StableHlo.TRef.unary ((.of main_cst_9) : StableHlo.TRef sig ⟨S_, .f32⟩) main_call4.v0 id
  :: StableHlo.TRef.unary main_call4.v0 main_call4.v1 (broadcastInDim S8192 ![] bcast_S_S8192)
  :: StableHlo.TRef.ternary ((.of main_v11) : StableHlo.TRef sig ⟨S8192, .i1⟩) ((.of main_v41) : StableHlo.TRef sig ⟨S8192, .f32⟩) main_call4.v1 main_call4.v2 select
  :: StableHlo.nullary main_c_10 (constantI S_ 32 255#32)
  :: StableHlo.unary main_c_10 main_v43 (broadcastInDim S8192 ![] bcast_S_S8192 : (⟨S_, .i32⟩ : BufTy).Contents (Elt F) → (⟨S8192, .i32⟩ : BufTy).Contents (Elt F))
  :: StableHlo.binary main_v9 main_v43 main_v44 (minsi : (⟨S8192, .i32⟩ : BufTy).Contents (Elt F) → (⟨S8192, .i32⟩ : BufTy).Contents (Elt F) → (⟨S8192, .i32⟩ : BufTy).Contents (Elt F))
  :: StableHlo.nullary main_c_11 (constantI S_ 32 0#32)
  :: StableHlo.unary main_c_11 main_v45 (broadcastInDim S8192 ![] bcast_S_S8192 : (⟨S_, .i32⟩ : BufTy).Contents (Elt F) → (⟨S8192, .i32⟩ : BufTy).Contents (Elt F))
  :: StableHlo.binary main_v0 main_v45 main_v46 (cmpi .slt : (⟨S8192, .i32⟩ : BufTy).Contents (Elt F) → (⟨S8192, .i32⟩ : BufTy).Contents (Elt F) → (⟨S8192, .i1⟩ : BufTy).Contents (Elt F))
  :: StableHlo.nullary main_c_12 (constantI S_ 32 64#32)
  :: StableHlo.unary main_c_12 main_v47 (broadcastInDim S8192 ![] bcast_S_S8192 : (⟨S_, .i32⟩ : BufTy).Contents (Elt F) → (⟨S8192, .i32⟩ : BufTy).Contents (Elt F))
  :: StableHlo.binary main_v0 main_v47 main_v48 (addi : (⟨S8192, .i32⟩ : BufTy).Contents (Elt F) → (⟨S8192, .i32⟩ : BufTy).Contents (Elt F) → (⟨S8192, .i32⟩ : BufTy).Contents (Elt F))
  :: StableHlo.ternary main_v46 main_v48 main_v0 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_13 (constantI S_ 32 0#32)
  :: StableHlo.unary main_c_13 main_v50 (broadcastInDim S8192 ![] bcast_S_S8192 : (⟨S_, .i32⟩ : BufTy).Contents (Elt F) → (⟨S8192, .i32⟩ : BufTy).Contents (Elt F))
  :: StableHlo.binary main_v44 main_v50 main_v51 (cmpi .slt : (⟨S8192, .i32⟩ : BufTy).Contents (Elt F) → (⟨S8192, .i32⟩ : BufTy).Contents (Elt F) → (⟨S8192, .i1⟩ : BufTy).Contents (Elt F))
  :: StableHlo.nullary main_c_14 (constantI S_ 32 256#32)
  :: StableHlo.unary main_c_14 main_v52 (broadcastInDim S8192 ![] bcast_S_S8192 : (⟨S_, .i32⟩ : BufTy).Contents (Elt F) → (⟨S8192, .i32⟩ : BufTy).Contents (Elt F))
  :: StableHlo.binary main_v44 main_v52 main_v53 (addi : (⟨S8192, .i32⟩ : BufTy).Contents (Elt F) → (⟨S8192, .i32⟩ : BufTy).Contents (Elt F) → (⟨S8192, .i32⟩ : BufTy).Contents (Elt F))
  :: StableHlo.ternary main_v51 main_v53 main_v44 main_v54 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v49 main_v55 (broadcastInDim S8192x1 ![0] bcast_S8192_S8192x1_0 : (⟨S8192, .i32⟩ : BufTy).Contents (Elt F) → (⟨S8192x1, .i32⟩ : BufTy).Contents (Elt F))
  :: StableHlo.unary main_v54 main_v56 (broadcastInDim S8192x1 ![0] bcast_S8192_S8192x1_0 : (⟨S8192, .i32⟩ : BufTy).Contents (Elt F) → (⟨S8192x1, .i32⟩ : BufTy).Contents (Elt F))
  :: StableHlo.binary main_v55 main_v56 main_v57 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.binary main_v40 main_v57 main_v58 ((fun x i => Host.gather gather_S64x256x2048_S8192x2_S8192x2048_1_01_n_n_01_1_112048 x i) : (⟨S64x256x2048, .f32⟩ : BufTy).Contents (Elt F) → (⟨S8192x2, .i32⟩ : BufTy).Contents (Elt F) → (⟨S8192x2048, .f32⟩ : BufTy).Contents (Elt F))
  :: StableHlo.unary main_v42 main_v59 (broadcastInDim S8192x1 ![0] bcast_S8192_S8192x1_0 : (⟨S8192, .f32⟩ : BufTy).Contents (Elt F) → (⟨S8192x1, .f32⟩ : BufTy).Contents (Elt F))
  :: StableHlo.unary main_v59 main_v60 (broadcastInDim S8192x2048 ![0, 1] bcast_S8192x1_S8192x2048_0_1 : (⟨S8192x1, .f32⟩ : BufTy).Contents (Elt F) → (⟨S8192x2048, .f32⟩ : BufTy).Contents (Elt F))
  :: StableHlo.binary main_v58 main_v60 main_v61 (mulf : (⟨S8192x2048, .f32⟩ : BufTy).Contents (Elt F) → (⟨S8192x2048, .f32⟩ : BufTy).Contents (Elt F) → (⟨S8192x2048, .f32⟩ : BufTy).Contents (Elt F))
  :: StableHlo.nullary main_cst_15 (constant S_ .f32 0x00000000#32)
  :: StableHlo.unary main_cst_15 main_v62 (broadcastInDim S1024x2048 ![] bcast_S_S1024x2048 : (⟨S_, .f32⟩ : BufTy).Contents (Elt F) → (⟨S1024x2048, .f32⟩ : BufTy).Contents (Elt F))
  :: StableHlo.unary main_v3 main_v63 (broadcastInDim S8192x1 ![0] bcast_S8192_S8192x1_0 : (⟨S8192, .i32⟩ : BufTy).Contents (Elt F) → (⟨S8192x1, .i32⟩ : BufTy).Contents (Elt F))
  :: StableHlo.ternary main_v62 main_v63 main_v61 main_v64 ((fun x i u => Host.scatterAdd scatter_S1024x2048_S8192x1_S8192x2048_1_0_0_1 x i u) : (⟨S1024x2048, .f32⟩ : BufTy).Contents (Elt F) → (⟨S8192x1, .i32⟩ : BufTy).Contents (Elt F) → (⟨S8192x2048, .f32⟩ : BufTy).Contents (Elt F) → (⟨S1024x2048, .f32⟩ : BufTy).Contents (Elt F))
  :: [] )

/-- @main's 102 operations, in order, over the plain builders. -/
abbrev opsP : List (HloOp τ sig (Elt F)) :=
  ( StableHlo.reshape main_arg5 main_v0 rfl shapeCasts_S1024x8_S8192
  :: StableHlo.nullary main_v1 (iotaInDim S1024 32 0)
  :: StableHlo.unary main_v1 main_v2 (broadcastInDim S1024x8 ![0] bcast_S1024_S1024x8_0 : (⟨S1024, .i32⟩ : BufTy).Contents (Elt F) → (⟨S1024x8, .i32⟩ : BufTy).Contents (Elt F))
  :: StableHlo.reshape main_v2 main_v3 rfl shapeCasts_S1024x8_S8192
  :: StableHlo.unary main_v0 main_call0_v0 ((broadcastInDim S8192x1 ![0] bcast_S8192_S8192x1_0) : (⟨S8192, .i32⟩ : BufTy).Contents (Elt F) → (⟨S8192x1, .i32⟩ : BufTy).Contents (Elt F))
  :: StableHlo.nullary main_call0_v1 ((iotaInDim S1x64 32 1) : (⟨S1x64, .i32⟩ : BufTy).Contents (Elt F))
  :: StableHlo.unary main_call0_v0 main_call0_v2 ((broadcastInDim S8192x64 ![0, 1] bcast_S8192x1_S8192x64_0_1) : (⟨S8192x1, .i32⟩ : BufTy).Contents (Elt F) → (⟨S8192x64, .i32⟩ : BufTy).Contents (Elt F))
  :: StableHlo.unary main_call0_v1 main_call0_v3 ((broadcastInDim S8192x64 ![0, 1] bcast_S1x64_S8192x64_0_1) : (⟨S1x64, .i32⟩ : BufTy).Contents (Elt F) → (⟨S8192x64, .i32⟩ : BufTy).Contents (Elt F))
  :: StableHlo.binary main_call0_v2 main_call0_v3 main_call0_v4 ((cmpi .eq) : (⟨S8192x64, .i32⟩ : BufTy).Contents (Elt F) → (⟨S8192x64, .i32⟩ : BufTy).Contents (Elt F) → (⟨S8192x64, .i1⟩ : BufTy).Contents (Elt F))
  :: StableHlo.unary main_call0_v4 main_v4 ((extui 32 · natLt_1_32) : (⟨S8192x64, .i1⟩ : BufTy).Contents (Elt F) → (⟨S8192x64, .i32⟩ : BufTy).Contents (Elt F))
  :: StableHlo.nullary main_call1_call0_c ((constantI S_ 32 0#32) : (⟨S_, .i32⟩ : BufTy).Contents (Elt F))
  :: StableHlo.unary main_call1_call0_c main_call1_call0_v0 ((broadcastInDim S_ ![] bcast_S_S_) : (⟨S_, .i32⟩ : BufTy).Contents (Elt F) → (⟨S_, .i32⟩ : BufTy).Contents (Elt F))
  :: StableHlo.binary main_v4 main_call1_call0_v0 main_v5 ((fun x v => Host.reduceWindow IntOp.addi ![8192, 1] ![1, 1] ![8191, 0] ![0, 0] x v reduceWindows_S8192x64_S8192x64_w8192s1p8191_0_w1s1p0_0 h_S_) : (⟨S8192x64, .i32⟩ : BufTy).Contents (Elt F) → (⟨S_, .i32⟩ : BufTy).Contents (Elt F) → (⟨S8192x64, .i32⟩ : BufTy).Contents (Elt F))
  :: StableHlo.binary main_v5 main_v4 main_v6 (muli : (⟨S8192x64, .i32⟩ : BufTy).Contents (Elt F) → (⟨S8192x64, .i32⟩ : BufTy).Contents (Elt F) → (⟨S8192x64, .i32⟩ : BufTy).Contents (Elt F))
  :: StableHlo.nullary main_c (constantI S_ 32 0#32)
  :: StableHlo.binary main_v6 main_c main_v7 ((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F))
  :: StableHlo.nullary main_c_0 (constantI S_ 32 1#32)
  :: StableHlo.unary main_c_0 main_v8 (broadcastInDim S8192 ![] bcast_S_S8192 : (⟨S_, .i32⟩ : BufTy).Contents (Elt F) → (⟨S8192, .i32⟩ : BufTy).Contents (Elt F))
  :: StableHlo.binary main_v7 main_v8 main_v9 (subi : (⟨S8192, .i32⟩ : BufTy).Contents (Elt F) → (⟨S8192, .i32⟩ : BufTy).Contents (Elt F) → (⟨S8192, .i32⟩ : BufTy).Contents (Elt F))
  :: StableHlo.nullary main_c_1 (constantI S_ 32 256#32)
  :: StableHlo.unary main_c_1 main_v10 (broadcastInDim S8192 ![] bcast_S_S8192 : (⟨S_, .i32⟩ : BufTy).Contents (Elt F) → (⟨S8192, .i32⟩ : BufTy).Contents (Elt F))
  :: StableHlo.binary main_v9 main_v10 main_v11 (cmpi .slt : (⟨S8192, .i32⟩ : BufTy).Contents (Elt F) → (⟨S8192, .i32⟩ : BufTy).Contents (Elt F) → (⟨S8192, .i1⟩ : BufTy).Contents (Elt F))
  :: StableHlo.nullary main_c_2 (constantI S_ 32 256#32)
  :: StableHlo.unary main_c_2 main_call2_v0 (id : (⟨S_, .i32⟩ : BufTy).Contents (Elt F) → (⟨S_, .i32⟩ : BufTy).Contents (Elt F))
  :: StableHlo.unary main_call2_v0 main_call2_v1 ((broadcastInDim S8192 ![] bcast_S_S8192) : (⟨S_, .i32⟩ : BufTy).Contents (Elt F) → (⟨S8192, .i32⟩ : BufTy).Contents (Elt F))
  :: StableHlo.ternary main_v11 main_v9 main_call2_v1 main_v12 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_cst (constant S_ .f32 0x00000000#32)
  :: StableHlo.unary main_cst main_v13 (broadcastInDim S64x257x2048 ![] bcast_S_S64x257x2048 : (⟨S_, .f32⟩ : BufTy).Contents (Elt F) → (⟨S64x257x2048, .f32⟩ : BufTy).Contents (Elt F))
  :: StableHlo.nullary main_c_3 (constantI S_ 32 0#32)
  :: StableHlo.unary main_c_3 main_v14 (broadcastInDim S8192 ![] bcast_S_S8192 : (⟨S_, .i32⟩ : BufTy).Contents (Elt F) → (⟨S8192, .i32⟩ : BufTy).Contents (Elt F))
  :: StableHlo.binary main_v3 main_v14 main_v15 (cmpi .slt : (⟨S8192, .i32⟩ : BufTy).Contents (Elt F) → (⟨S8192, .i32⟩ : BufTy).Contents (Elt F) → (⟨S8192, .i1⟩ : BufTy).Contents (Elt F))
  :: StableHlo.nullary main_c_4 (constantI S_ 32 1024#32)
  :: StableHlo.unary main_c_4 main_v16 (broadcastInDim S8192 ![] bcast_S_S8192 : (⟨S_, .i32⟩ : BufTy).Contents (Elt F) → (⟨S8192, .i32⟩ : BufTy).Contents (Elt F))
  :: StableHlo.binary main_v3 main_v16 main_v17 (addi : (⟨S8192, .i32⟩ : BufTy).Contents (Elt F) → (⟨S8192, .i32⟩ : BufTy).Contents (Elt F) → (⟨S8192, .i32⟩ : BufTy).Contents (Elt F))
  :: StableHlo.ternary main_v15 main_v17 main_v3 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v18 main_v19 (broadcastInDim S8192x1 ![0] bcast_S8192_S8192x1_0 : (⟨S8192, .i32⟩ : BufTy).Contents (Elt F) → (⟨S8192x1, .i32⟩ : BufTy).Contents (Elt F))
  :: StableHlo.binary main_arg0 main_v19 main_v20 ((fun x i => Host.gather gather_S1024x2048_S8192x1_S8192x2048_1_0_n_n_0_1_12048 x i) : (⟨S1024x2048, .f32⟩ : BufTy).Contents (Elt F) → (⟨S8192x1, .i32⟩ : BufTy).Contents (Elt F) → (⟨S8192x2048, .f32⟩ : BufTy).Contents (Elt F))
  :: StableHlo.nullary main_c_5 (constantI S_ 32 0#32)
  :: StableHlo.unary main_c_5 main_v21 (broadcastInDim S8192 ![] bcast_S_S8192 : (⟨S_, .i32⟩ : BufTy).Contents (Elt F) → (⟨S8192, .i32⟩ : BufTy).Contents (Elt F))
  :: StableHlo.binary main_v0 main_v21 main_v22 (cmpi .slt : (⟨S8192, .i32⟩ : BufTy).Contents (Elt F) → (⟨S8192, .i32⟩ : BufTy).Contents (Elt F) → (⟨S8192, .i1⟩ : BufTy).Contents (Elt F))
  :: StableHlo.nullary main_c_6 (constantI S_ 32 64#32)
  :: StableHlo.unary main_c_6 main_v23 (broadcastInDim S8192 ![] bcast_S_S8192 : (⟨S_, .i32⟩ : BufTy).Contents (Elt F) → (⟨S8192, .i32⟩ : BufTy).Contents (Elt F))
  :: StableHlo.binary main_v0 main_v23 main_v24 (addi : (⟨S8192, .i32⟩ : BufTy).Contents (Elt F) → (⟨S8192, .i32⟩ : BufTy).Contents (Elt F) → (⟨S8192, .i32⟩ : BufTy).Contents (Elt F))
  :: StableHlo.ternary main_v22 main_v24 main_v0 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_7 (constantI S_ 32 0#32)
  :: StableHlo.unary main_c_7 main_v26 (broadcastInDim S8192 ![] bcast_S_S8192 : (⟨S_, .i32⟩ : BufTy).Contents (Elt F) → (⟨S8192, .i32⟩ : BufTy).Contents (Elt F))
  :: StableHlo.binary main_v12 main_v26 main_v27 (cmpi .slt : (⟨S8192, .i32⟩ : BufTy).Contents (Elt F) → (⟨S8192, .i32⟩ : BufTy).Contents (Elt F) → (⟨S8192, .i1⟩ : BufTy).Contents (Elt F))
  :: StableHlo.nullary main_c_8 (constantI S_ 32 257#32)
  :: StableHlo.unary main_c_8 main_v28 (broadcastInDim S8192 ![] bcast_S_S8192 : (⟨S_, .i32⟩ : BufTy).Contents (Elt F) → (⟨S8192, .i32⟩ : BufTy).Contents (Elt F))
  :: StableHlo.binary main_v12 main_v28 main_v29 (addi : (⟨S8192, .i32⟩ : BufTy).Contents (Elt F) → (⟨S8192, .i32⟩ : BufTy).Contents (Elt F) → (⟨S8192, .i32⟩ : BufTy).Contents (Elt F))
  :: StableHlo.ternary main_v27 main_v29 main_v12 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v25 main_v31 (broadcastInDim S8192x1 ![0] bcast_S8192_S8192x1_0 : (⟨S8192, .i32⟩ : BufTy).Contents (Elt F) → (⟨S8192x1, .i32⟩ : BufTy).Contents (Elt F))
  :: StableHlo.unary main_v30 main_v32 (broadcastInDim S8192x1 ![0] bcast_S8192_S8192x1_0 : (⟨S8192, .i32⟩ : BufTy).Contents (Elt F) → (⟨S8192x1, .i32⟩ : BufTy).Contents (Elt F))
  :: StableHlo.binary main_v31 main_v32 main_v33 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.ternary main_v13 main_v33 main_v20 main_v34 ((fun x i u => Host.scatterAdd scatter_S64x257x2048_S8192x2_S8192x2048_1_01_01_1 x i u) : (⟨S64x257x2048, .f32⟩ : BufTy).Contents (Elt F) → (⟨S8192x2, .i32⟩ : BufTy).Contents (Elt F) → (⟨S8192x2048, .f32⟩ : BufTy).Contents (Elt F) → (⟨S64x257x2048, .f32⟩ : BufTy).Contents (Elt F))
  :: StableHlo.unary main_v34 main_v35 ((extractStridedSlice S64x256x2048 ![0, 0, 0] · slices_S64x257x2048_S64x256x2048_0_0_0) : (⟨S64x257x2048, .f32⟩ : BufTy).Contents (Elt F) → (⟨S64x256x2048, .f32⟩ : BufTy).Contents (Elt F))
  :: StableHlo.binary main_v35 main_arg2 main_v36 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.binary main_v35 main_arg3 main_v37 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.unary main_v36 main_call3_v0 (Host.negf : (⟨S64x256x768, .f32⟩ : BufTy).Contents (Elt F) → (⟨S64x256x768, .f32⟩ : BufTy).Contents (Elt F))
  :: StableHlo.unary main_call3_v0 main_call3_v1 (Host.exp : (⟨S64x256x768, .f32⟩ : BufTy).Contents (Elt F) → (⟨S64x256x768, .f32⟩ : BufTy).Contents (Elt F))
  :: StableHlo.nullary main_call3_cst ((constant S_ .f32 0x3F800000#32) : (⟨S_, .f32⟩ : BufTy).Contents (Elt F))
  :: StableHlo.unary main_call3_cst main_call3_v2 ((broadcastInDim S64x256x768 ![] bcast_S_S64x256x768) : (⟨S_, .f32⟩ : BufTy).Contents (Elt F) → (⟨S64x256x768, .f32⟩ : BufTy).Contents (Elt F))
  :: StableHlo.binary main_call3_v2 main_call3_v1 main_call3_v3 (addf : (⟨S64x256x768, .f32⟩ : BufTy).Contents (Elt F) → (⟨S64x256x768, .f32⟩ : BufTy).Contents (Elt F) → (⟨S64x256x768, .f32⟩ : BufTy).Contents (Elt F))
  :: StableHlo.nullary main_call3_cst_0 ((constant S_ .f32 0x3F800000#32) : (⟨S_, .f32⟩ : BufTy).Contents (Elt F))
  :: StableHlo.unary main_call3_cst_0 main_call3_v4 ((broadcastInDim S64x256x768 ![] bcast_S_S64x256x768) : (⟨S_, .f32⟩ : BufTy).Contents (Elt F) → (⟨S64x256x768, .f32⟩ : BufTy).Contents (Elt F))
  :: StableHlo.binary main_call3_v4 main_call3_v3 main_call3_v5 (Host.divf : (⟨S64x256x768, .f32⟩ : BufTy).Contents (Elt F) → (⟨S64x256x768, .f32⟩ : BufTy).Contents (Elt F) → (⟨S64x256x768, .f32⟩ : BufTy).Contents (Elt F))
  :: StableHlo.binary main_v36 main_call3_v5 main_v38 (mulf : (⟨S64x256x768, .f32⟩ : BufTy).Contents (Elt F) → (⟨S64x256x768, .f32⟩ : BufTy).Contents (Elt F) → (⟨S64x256x768, .f32⟩ : BufTy).Contents (Elt F))
  :: StableHlo.binary main_v38 main_v37 main_v39 (mulf : (⟨S64x256x768, .f32⟩ : BufTy).Contents (Elt F) → (⟨S64x256x768, .f32⟩ : BufTy).Contents (Elt F) → (⟨S64x256x768, .f32⟩ : BufTy).Contents (Elt F))
  :: StableHlo.binary main_v39 main_arg4 main_v40 ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F))
  :: StableHlo.reshape main_arg1 main_v41 rfl shapeCasts_S1024x8_S8192
  :: StableHlo.nullary main_cst_9 (constant S_ .f32 0x00000000#32)
  :: StableHlo.unary main_cst_9 main_call4_v0 (id : (⟨S_, .f32⟩ : BufTy).Contents (Elt F) → (⟨S_, .f32⟩ : BufTy).Contents (Elt F))
  :: StableHlo.unary main_call4_v0 main_call4_v1 ((broadcastInDim S8192 ![] bcast_S_S8192) : (⟨S_, .f32⟩ : BufTy).Contents (Elt F) → (⟨S8192, .f32⟩ : BufTy).Contents (Elt F))
  :: StableHlo.ternary main_v11 main_v41 main_call4_v1 main_v42 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F))
  :: StableHlo.nullary main_c_10 (constantI S_ 32 255#32)
  :: StableHlo.unary main_c_10 main_v43 (broadcastInDim S8192 ![] bcast_S_S8192 : (⟨S_, .i32⟩ : BufTy).Contents (Elt F) → (⟨S8192, .i32⟩ : BufTy).Contents (Elt F))
  :: StableHlo.binary main_v9 main_v43 main_v44 (minsi : (⟨S8192, .i32⟩ : BufTy).Contents (Elt F) → (⟨S8192, .i32⟩ : BufTy).Contents (Elt F) → (⟨S8192, .i32⟩ : BufTy).Contents (Elt F))
  :: StableHlo.nullary main_c_11 (constantI S_ 32 0#32)
  :: StableHlo.unary main_c_11 main_v45 (broadcastInDim S8192 ![] bcast_S_S8192 : (⟨S_, .i32⟩ : BufTy).Contents (Elt F) → (⟨S8192, .i32⟩ : BufTy).Contents (Elt F))
  :: StableHlo.binary main_v0 main_v45 main_v46 (cmpi .slt : (⟨S8192, .i32⟩ : BufTy).Contents (Elt F) → (⟨S8192, .i32⟩ : BufTy).Contents (Elt F) → (⟨S8192, .i1⟩ : BufTy).Contents (Elt F))
  :: StableHlo.nullary main_c_12 (constantI S_ 32 64#32)
  :: StableHlo.unary main_c_12 main_v47 (broadcastInDim S8192 ![] bcast_S_S8192 : (⟨S_, .i32⟩ : BufTy).Contents (Elt F) → (⟨S8192, .i32⟩ : BufTy).Contents (Elt F))
  :: StableHlo.binary main_v0 main_v47 main_v48 (addi : (⟨S8192, .i32⟩ : BufTy).Contents (Elt F) → (⟨S8192, .i32⟩ : BufTy).Contents (Elt F) → (⟨S8192, .i32⟩ : BufTy).Contents (Elt F))
  :: StableHlo.ternary main_v46 main_v48 main_v0 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_13 (constantI S_ 32 0#32)
  :: StableHlo.unary main_c_13 main_v50 (broadcastInDim S8192 ![] bcast_S_S8192 : (⟨S_, .i32⟩ : BufTy).Contents (Elt F) → (⟨S8192, .i32⟩ : BufTy).Contents (Elt F))
  :: StableHlo.binary main_v44 main_v50 main_v51 (cmpi .slt : (⟨S8192, .i32⟩ : BufTy).Contents (Elt F) → (⟨S8192, .i32⟩ : BufTy).Contents (Elt F) → (⟨S8192, .i1⟩ : BufTy).Contents (Elt F))
  :: StableHlo.nullary main_c_14 (constantI S_ 32 256#32)
  :: StableHlo.unary main_c_14 main_v52 (broadcastInDim S8192 ![] bcast_S_S8192 : (⟨S_, .i32⟩ : BufTy).Contents (Elt F) → (⟨S8192, .i32⟩ : BufTy).Contents (Elt F))
  :: StableHlo.binary main_v44 main_v52 main_v53 (addi : (⟨S8192, .i32⟩ : BufTy).Contents (Elt F) → (⟨S8192, .i32⟩ : BufTy).Contents (Elt F) → (⟨S8192, .i32⟩ : BufTy).Contents (Elt F))
  :: StableHlo.ternary main_v51 main_v53 main_v44 main_v54 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v49 main_v55 (broadcastInDim S8192x1 ![0] bcast_S8192_S8192x1_0 : (⟨S8192, .i32⟩ : BufTy).Contents (Elt F) → (⟨S8192x1, .i32⟩ : BufTy).Contents (Elt F))
  :: StableHlo.unary main_v54 main_v56 (broadcastInDim S8192x1 ![0] bcast_S8192_S8192x1_0 : (⟨S8192, .i32⟩ : BufTy).Contents (Elt F) → (⟨S8192x1, .i32⟩ : BufTy).Contents (Elt F))
  :: StableHlo.binary main_v55 main_v56 main_v57 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.binary main_v40 main_v57 main_v58 ((fun x i => Host.gather gather_S64x256x2048_S8192x2_S8192x2048_1_01_n_n_01_1_112048 x i) : (⟨S64x256x2048, .f32⟩ : BufTy).Contents (Elt F) → (⟨S8192x2, .i32⟩ : BufTy).Contents (Elt F) → (⟨S8192x2048, .f32⟩ : BufTy).Contents (Elt F))
  :: StableHlo.unary main_v42 main_v59 (broadcastInDim S8192x1 ![0] bcast_S8192_S8192x1_0 : (⟨S8192, .f32⟩ : BufTy).Contents (Elt F) → (⟨S8192x1, .f32⟩ : BufTy).Contents (Elt F))
  :: StableHlo.unary main_v59 main_v60 (broadcastInDim S8192x2048 ![0, 1] bcast_S8192x1_S8192x2048_0_1 : (⟨S8192x1, .f32⟩ : BufTy).Contents (Elt F) → (⟨S8192x2048, .f32⟩ : BufTy).Contents (Elt F))
  :: StableHlo.binary main_v58 main_v60 main_v61 (mulf : (⟨S8192x2048, .f32⟩ : BufTy).Contents (Elt F) → (⟨S8192x2048, .f32⟩ : BufTy).Contents (Elt F) → (⟨S8192x2048, .f32⟩ : BufTy).Contents (Elt F))
  :: StableHlo.nullary main_cst_15 (constant S_ .f32 0x00000000#32)
  :: StableHlo.unary main_cst_15 main_v62 (broadcastInDim S1024x2048 ![] bcast_S_S1024x2048 : (⟨S_, .f32⟩ : BufTy).Contents (Elt F) → (⟨S1024x2048, .f32⟩ : BufTy).Contents (Elt F))
  :: StableHlo.unary main_v3 main_v63 (broadcastInDim S8192x1 ![0] bcast_S8192_S8192x1_0 : (⟨S8192, .i32⟩ : BufTy).Contents (Elt F) → (⟨S8192x1, .i32⟩ : BufTy).Contents (Elt F))
  :: StableHlo.ternary main_v62 main_v63 main_v61 main_v64 ((fun x i u => Host.scatterAdd scatter_S1024x2048_S8192x1_S8192x2048_1_0_0_1 x i u) : (⟨S1024x2048, .f32⟩ : BufTy).Contents (Elt F) → (⟨S8192x1, .i32⟩ : BufTy).Contents (Elt F) → (⟨S8192x2048, .f32⟩ : BufTy).Contents (Elt F) → (⟨S1024x2048, .f32⟩ : BufTy).Contents (Elt F))
  :: [] )

/-- Each touches TensorCore references only. -/
theorem ops_sub : (ops : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

end Cert.ReferenceIdeal.RefRun

end
-- ==== Proof.Spec.lean ====
/-
  The two programs share their routing and their combine; this module names those shared pieces once.

  Routing.  eflat is the expert of each of the 8192 (token, choice) pairs, tok the pair's token.  pos e is the
  pair's rank among the pairs of its own expert: the running count of the expert's one-hot column, read at the pair,
  minus one.  A pair is valid when its rank is below the capacity 256; slot is the rank, or the dump row 256 for a
  pair over capacity.  xe hs idx scatters each pair's token row of hs into row slot of its expert's 257-row
  buffer, adding, and keeps rows 0 … 255: the tokens routed to each expert.

  Combine.  combine w idx Y reads, for each pair, row min (pos, 255) of its expert's block of Y, scales it by the
  pair's weight (zero for a pair over capacity) and adds it into the pair's token row; tail is the same over any
  experts, tokens, ranks and validity.

  Between the two stands the expert network.  mlpRef is the reference's form of it: three products batched over the
  experts, y = (silu (x gᵀ) · (x uᵀ)) dᵀ, with silu t = t · 1 / (1 + e^(-t)).

  Nothing here is opened by the certificate: both programs are shown to end at combine w idx (mlpRef (xe hs idx) …).
-/
import proofs.«111336_j12481174962624_1_alg».proof.KernelIdeal
import proofs.«111336_j12481174962624_1_alg».proof.ReferenceIdeal

noncomputable section

namespace Cert.Moe

open Idealize.ShloMosaic

variable {F : FTy → Type} [FloatOps F]

section Routing

open Cert.KernelIdeal Cert.KernelIdeal.Facts₀

variable [Cert.KernelIdeal.Facts]

/-- The [1024, 8] table of experts read as 8192 pairs, token-major. -/
def eflat (idx : (⟨S1024x8, .i32⟩ : BufTy).Contents (Elt F)) : (⟨S8192, .i32⟩ : BufTy).Contents (Elt F) :=
  fun i => shapeCast S8192 idx shapeCasts_S1024x8_S8192 i

/-- The token of each pair: the token number repeated over its 8 choices. -/
def tok : (⟨S8192, .i32⟩ : BufTy).Contents (Elt F) :=
  fun i => shapeCast S8192
    ((broadcastInDim S1024x8 ![0] bcast_S1024_S1024x8_0 : (⟨S1024, .i32⟩ : BufTy).Contents (Elt F) → (⟨S1024x8, .i32⟩ : BufTy).Contents (Elt F))
      (iotaInDim S1024 32 0)) shapeCasts_S1024x8_S8192 i

/-- The one-hot row of each pair over the 64 experts. -/
def onehot (e : (⟨S8192, .i32⟩ : BufTy).Contents (Elt F)) : (⟨S8192x64, .i32⟩ : BufTy).Contents (Elt F) :=
  extui 32
    ((cmpi .eq : (⟨S8192x64, .i32⟩ : BufTy).Contents (Elt F) → (⟨S8192x64, .i32⟩ : BufTy).Contents (Elt F) → (⟨S8192x64, .i1⟩ : BufTy).Contents (Elt F))
      ((broadcastInDim S8192x64 ![0, 1] bcast_S8192x1_S8192x64_0_1 : (⟨S8192x1, .i32⟩ : BufTy).Contents (Elt F) → (⟨S8192x64, .i32⟩ : BufTy).Contents (Elt F))
        ((broadcastInDim S8192x1 ![0] bcast_S8192_S8192x1_0 : (⟨S8192, .i32⟩ : BufTy).Contents (Elt F) → (⟨S8192x1, .i32⟩ : BufTy).Contents (Elt F)) e))
      ((broadcastInDim S8192x64 ![0, 1] bcast_S1x64_S8192x64_0_1 : (⟨S1x64, .i32⟩ : BufTy).Contents (Elt F) → (⟨S8192x64, .i32⟩ : BufTy).Contents (Elt F))
        (iotaInDim S1x64 32 1)))
    natLt_1_32

/-- The running count down each expert's column. -/
def cum (oh : (⟨S8192x64, .i32⟩ : BufTy).Contents (Elt F)) : (⟨S8192x64, .i32⟩ : BufTy).Contents (Elt F) :=
  Host.reduceWindow IntOp.addi ![8192, 1] ![1, 1] ![8191, 0] ![0, 0] oh
    ((broadcastInDim S_ ![] bcast_S_S_ : (⟨S_, .i32⟩ : BufTy).Contents (Elt F) → (⟨S_, .i32⟩ : BufTy).Contents (Elt F)) (constantI S_ 32 0#32))
    reduceWindows_S8192x64_S8192x64_w8192s1p8191_0_w1s1p0_0 h_S_

/-- The rank of each pair among the pairs of its expert. -/
def pos (e : (⟨S8192, .i32⟩ : BufTy).Contents (Elt F)) : (⟨S8192, .i32⟩ : BufTy).Contents (Elt F) :=
  (subi : (⟨S8192, .i32⟩ : BufTy).Contents (Elt F) → (⟨S8192, .i32⟩ : BufTy).Contents (Elt F) → (⟨S8192, .i32⟩ : BufTy).Contents (Elt F))
    (((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F))
      ((muli : (⟨S8192x64, .i32⟩ : BufTy).Contents (Elt F) → (⟨S8192x64, .i32⟩ : BufTy).Contents (Elt F) → (⟨S8192x64, .i32⟩ : BufTy).Contents (Elt F))
        (cum (onehot e)) (onehot e))
      (constantI S_ 32 0#32))
    ((broadcastInDim S8192 ![] bcast_S_S8192 : (⟨S_, .i32⟩ : BufTy).Contents (Elt F) → (⟨S8192, .i32⟩ : BufTy).Contents (Elt F)) (constantI S_ 32 1#32))

/-- The pair fits its expert's 256 rows. -/
def valid (e : (⟨S8192, .i32⟩ : BufTy).Contents (Elt F)) : (⟨S8192, .i1⟩ : BufTy).Contents (Elt F) :=
  (cmpi .slt : (⟨S8192, .i32⟩ : BufTy).Contents (Elt F) → (⟨S8192, .i32⟩ : BufTy).Contents (Elt F) → (⟨S8192, .i1⟩ : BufTy).Contents (Elt F))
    (pos e)
    ((broadcastInDim S8192 ![] bcast_S_S8192 : (⟨S_, .i32⟩ : BufTy).Contents (Elt F) → (⟨S8192, .i32⟩ : BufTy).Contents (Elt F)) (constantI S_ 32 256#32))

/-- The row the pair is written to: its rank, or the dump row 256. -/
def slot (e : (⟨S8192, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
    (valid e) (pos e)
    ((broadcastInDim S8192 ![] bcast_S_S8192 : (⟨S_, .i32⟩ : BufTy).Contents (Elt F) → (⟨S8192, .i32⟩ : BufTy).Contents (Elt F))
      ((id : (⟨S_, .i32⟩ : BufTy).Contents (Elt F) → (⟨S_, .i32⟩ : BufTy).Contents (Elt F)) (constantI S_ 32 256#32)))

/-- jax's index normalisation: a negative index counts from the end of an axis of extent n. -/
def wrap (n : BitVec 32) (x : (⟨S8192, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
    ((cmpi .slt : (⟨S8192, .i32⟩ : BufTy).Contents (Elt F) → (⟨S8192, .i32⟩ : BufTy).Contents (Elt F) → (⟨S8192, .i1⟩ : BufTy).Contents (Elt F)) x
      ((broadcastInDim S8192 ![] bcast_S_S8192 : (⟨S_, .i32⟩ : BufTy).Contents (Elt F) → (⟨S8192, .i32⟩ : BufTy).Contents (Elt F)) (constantI S_ 32 0#32)))
    ((addi : (⟨S8192, .i32⟩ : BufTy).Contents (Elt F) → (⟨S8192, .i32⟩ : BufTy).Contents (Elt F) → (⟨S8192, .i32⟩ : BufTy).Contents (Elt F)) x
      ((broadcastInDim S8192 ![] bcast_S_S8192 : (⟨S_, .i32⟩ : BufTy).Contents (Elt F) → (⟨S8192, .i32⟩ : BufTy).Contents (Elt F)) (constantI S_ 32 n)))
    x

/-- A vector of indices as a column. -/
def col (x : (⟨S8192, .i32⟩ : BufTy).Contents (Elt F)) : (⟨S8192x1, .i32⟩ : BufTy).Contents (Elt F) :=
  (broadcastInDim S8192x1 ![0] bcast_S8192_S8192x1_0 : (⟨S8192, .i32⟩ : BufTy).Contents (Elt F) → (⟨S8192x1, .i32⟩ : BufTy).Contents (Elt F)) x

/-- Two columns side by side, as a function of the two columns. -/
def concat2 (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-- The printed concatenation of two columns is that function. -/
theorem concat2_fun :
    ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
      = concat2 (F := F) := rfl

/-- Two index vectors side by side: one (expert, row) index per pair. -/
def pair (a b : (⟨S8192, .i32⟩ : BufTy).Contents (Elt F)) : (⟨S8192x2, .i32⟩ : BufTy).Contents (Elt F) :=
  concat2 (col a) (col b)

/-- The tokens routed to each expert: [64, 256, 2048]. -/
def xe (hs : (⟨S1024x2048, .f32⟩ : BufTy).Contents (Elt F)) (idx : (⟨S1024x8, .i32⟩ : BufTy).Contents (Elt F)) :
    (⟨S64x256x2048, .f32⟩ : BufTy).Contents (Elt F) :=
  ((extractStridedSlice S64x256x2048 ![0, 0, 0] · slices_S64x257x2048_S64x256x2048_0_0_0) : (⟨S64x257x2048, .f32⟩ : BufTy).Contents (Elt F) → (⟨S64x256x2048, .f32⟩ : BufTy).Contents (Elt F))
    (((fun x i u => Host.scatterAdd scatter_S64x257x2048_S8192x2_S8192x2048_1_01_01_1 x i u) : (⟨S64x257x2048, .f32⟩ : BufTy).Contents (Elt F) → (⟨S8192x2, .i32⟩ : BufTy).Contents (Elt F) → (⟨S8192x2048, .f32⟩ : BufTy).Contents (Elt F) → (⟨S64x257x2048, .f32⟩ : BufTy).Contents (Elt F))
      ((broadcastInDim S64x257x2048 ![] bcast_S_S64x257x2048 : (⟨S_, .f32⟩ : BufTy).Contents (Elt F) → (⟨S64x257x2048, .f32⟩ : BufTy).Contents (Elt F)) (constant S_ .f32 0x00000000#32))
      (pair (wrap 64#32 (eflat idx)) (wrap 257#32 (slot (eflat idx))))
      (((fun x i => Host.gather gather_S1024x2048_S8192x1_S8192x2048_1_0_n_n_0_1_12048 x i) : (⟨S1024x2048, .f32⟩ : BufTy).Contents (Elt F) → (⟨S8192x1, .i32⟩ : BufTy).Contents (Elt F) → (⟨S8192x2048, .f32⟩ : BufTy).Contents (Elt F))
        hs (col (wrap 1024#32 tok))))

/-- The weight of each pair, zero where the pair is not valid. -/
def wts (w : (⟨S1024x8, .f32⟩ : BufTy).Contents (Elt F)) (v : (⟨S8192, .i1⟩ : BufTy).Contents (Elt F)) :
    (⟨S8192, .f32⟩ : BufTy).Contents (Elt F) :=
  (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F))
    v (fun i => shapeCast S8192 w shapeCasts_S1024x8_S8192 i)
    ((broadcastInDim S8192 ![] bcast_S_S8192 : (⟨S_, .f32⟩ : BufTy).Contents (Elt F) → (⟨S8192, .f32⟩ : BufTy).Contents (Elt F))
      ((id : (⟨S_, .f32⟩ : BufTy).Contents (Elt F) → (⟨S_, .f32⟩ : BufTy).Contents (Elt F)) (constant S_ .f32 0x00000000#32)))

/-- The combine over the pairs' experts e, tokens t, ranks p and validity v, whatever they are: row min (p, 255) of
    expert e's block of Y, times the pair's weight, added into row t. -/
def tail (w : (⟨S1024x8, .f32⟩ : BufTy).Contents (Elt F)) (e t p : (⟨S8192, .i32⟩ : BufTy).Contents (Elt F)) (v : (⟨S8192, .i1⟩ : BufTy).Contents (Elt F))
    (Y : (⟨S64x256x2048, .f32⟩ : BufTy).Contents (Elt F)) : (⟨S1024x2048, .f32⟩ : BufTy).Contents (Elt F) :=
  ((fun x i u => Host.scatterAdd scatter_S1024x2048_S8192x1_S8192x2048_1_0_0_1 x i u) : (⟨S1024x2048, .f32⟩ : BufTy).Contents (Elt F) → (⟨S8192x1, .i32⟩ : BufTy).Contents (Elt F) → (⟨S8192x2048, .f32⟩ : BufTy).Contents (Elt F) → (⟨S1024x2048, .f32⟩ : BufTy).Contents (Elt F))
    ((broadcastInDim S1024x2048 ![] bcast_S_S1024x2048 : (⟨S_, .f32⟩ : BufTy).Contents (Elt F) → (⟨S1024x2048, .f32⟩ : BufTy).Contents (Elt F)) (constant S_ .f32 0x00000000#32))
    (col t)
    ((mulf : (⟨S8192x2048, .f32⟩ : BufTy).Contents (Elt F) → (⟨S8192x2048, .f32⟩ : BufTy).Contents (Elt F) → (⟨S8192x2048, .f32⟩ : BufTy).Contents (Elt F))
      (((fun x i => Host.gather gather_S64x256x2048_S8192x2_S8192x2048_1_01_n_n_01_1_112048 x i) : (⟨S64x256x2048, .f32⟩ : BufTy).Contents (Elt F) → (⟨S8192x2, .i32⟩ : BufTy).Contents (Elt F) → (⟨S8192x2048, .f32⟩ : BufTy).Contents (Elt F))
        Y
        (pair (wrap 64#32 e)
          (wrap 256#32 ((minsi : (⟨S8192, .i32⟩ : BufTy).Contents (Elt F) → (⟨S8192, .i32⟩ : BufTy).Contents (Elt F) → (⟨S8192, .i32⟩ : BufTy).Contents (Elt F))
            p
            ((broadcastInDim S8192 ![] bcast_S_S8192 : (⟨S_, .i32⟩ : BufTy).Contents (Elt F) → (⟨S8192, .i32⟩ : BufTy).Contents (Elt F)) (constantI S_ 32 255#32))))))
      ((broadcastInDim S8192x2048 ![0, 1] bcast_S8192x1_S8192x2048_0_1 : (⟨S8192x1, .f32⟩ : BufTy).Contents (Elt F) → (⟨S8192x2048, .f32⟩ : BufTy).Contents (Elt F))
        ((broadcastInDim S8192x1 ![0] bcast_S8192_S8192x1_0 : (⟨S8192, .f32⟩ : BufTy).Contents (Elt F) → (⟨S8192x1, .f32⟩ : BufTy).Contents (Elt F))
          (wts w v))))

/-- The weighted rows of Y added back into their tokens, for the routing of idx: [1024, 2048]. -/
def combine (w : (⟨S1024x8, .f32⟩ : BufTy).Contents (Elt F)) (idx : (⟨S1024x8, .i32⟩ : BufTy).Contents (Elt F))
    (Y : (⟨S64x256x2048, .f32⟩ : BufTy).Contents (Elt F)) : (⟨S1024x2048, .f32⟩ : BufTy).Contents (Elt F) :=
  tail w (eflat idx) tok (pos (eflat idx)) (valid (eflat idx)) Y

end Routing

section Experts

open Cert.ReferenceIdeal Cert.ReferenceIdeal.Facts₀

variable [Cert.ReferenceIdeal.Facts]

/-- x wᵀ for every expert: [64, 256, 2048] by [64, 768, 2048] to [64, 256, 768]. -/
def upR (X : (⟨S64x256x2048, .f32⟩ : BufTy).Contents (Elt F)) (W : (⟨S64x768x2048, .f32⟩ : BufTy).Contents (Elt F)) :
    (⟨S64x256x768, .f32⟩ : BufTy).Contents (Elt F) :=
  ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
    X W

/-- silu t = t · (1 / (1 + e^(-t))), as jax expands it on the host. -/
def siluR (x : (⟨S64x256x768, .f32⟩ : BufTy).Contents (Elt F)) : (⟨S64x256x768, .f32⟩ : BufTy).Contents (Elt F) :=
  (mulf : (⟨S64x256x768, .f32⟩ : BufTy).Contents (Elt F) → (⟨S64x256x768, .f32⟩ : BufTy).Contents (Elt F) → (⟨S64x256x768, .f32⟩ : BufTy).Contents (Elt F)) x
    ((Host.divf : (⟨S64x256x768, .f32⟩ : BufTy).Contents (Elt F) → (⟨S64x256x768, .f32⟩ : BufTy).Contents (Elt F) → (⟨S64x256x768, .f32⟩ : BufTy).Contents (Elt F))
      ((broadcastInDim S64x256x768 ![] bcast_S_S64x256x768 : (⟨S_, .f32⟩ : BufTy).Contents (Elt F) → (⟨S64x256x768, .f32⟩ : BufTy).Contents (Elt F)) (constant S_ .f32 0x3F800000#32))
      ((addf : (⟨S64x256x768, .f32⟩ : BufTy).Contents (Elt F) → (⟨S64x256x768, .f32⟩ : BufTy).Contents (Elt F) → (⟨S64x256x768, .f32⟩ : BufTy).Contents (Elt F))
        ((broadcastInDim S64x256x768 ![] bcast_S_S64x256x768 : (⟨S_, .f32⟩ : BufTy).Contents (Elt F) → (⟨S64x256x768, .f32⟩ : BufTy).Contents (Elt F)) (constant S_ .f32 0x3F800000#32))
        ((Host.exp : (⟨S64x256x768, .f32⟩ : BufTy).Contents (Elt F) → (⟨S64x256x768, .f32⟩ : BufTy).Contents (Elt F))
          ((Host.negf : (⟨S64x256x768, .f32⟩ : BufTy).Contents (Elt F) → (⟨S64x256x768, .f32⟩ : BufTy).Contents (Elt F)) x))))

/-- The expert network, batched over the experts: (silu (x gᵀ) · (x uᵀ)) dᵀ. -/
def mlpRef (X : (⟨S64x256x2048, .f32⟩ : BufTy).Contents (Elt F)) (GW UW : (⟨S64x768x2048, .f32⟩ : BufTy).Contents (Elt F))
    (DW : (⟨S64x2048x768, .f32⟩ : BufTy).Contents (Elt F)) : (⟨S64x256x2048, .f32⟩ : BufTy).Contents (Elt F) :=
  ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F))
    ((mulf : (⟨S64x256x768, .f32⟩ : BufTy).Contents (Elt F) → (⟨S64x256x768, .f32⟩ : BufTy).Contents (Elt F) → (⟨S64x256x768, .f32⟩ : BufTy).Contents (Elt F))
      (siluR (upR X GW)) (upR X UW))
    DW

end Experts

end Cert.Moe

end
-- ==== Proof.RefRun.lean ====
/-
  The reference's run.  Its @main is a straight line of 102 host operations (the list of RefOps), so every weakly
  fair execution ends with each buffer at the fold of those operations over the launch contents.  Read at the result
  buffer, the fold is the routing, the batched expert network and the combine, composed:
  combine w idx (mlpRef (xe hs idx) gate up down).  The argument buffers are written by no operation.
-/
import proofs.«111336_j12481174962624_1_alg».proof.Proof.RefOps
import proofs.«111336_j12481174962624_1_alg».proof.Proof.Spec
import proofs.«111336_j12481174962624_1_alg».proof.Proof.Gen.KernelIdeal

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

-- a hundred binds re-associated: the rewrite under the chain recurses once per statement
set_option maxRecDepth 8192 in
set_option maxHeartbeats 4000000 in
/-- @main is that straight line: the outlined functions unfolded at their calls, sequencing re-associated. -/
theorem main_eq (c : Dev nD) : main (F := F) c = seq ops := by
  simp only [main, main_part0, main_part1, fn_one_hot.body, fn_cumsum.body, fn_cumsum_0.body, fn_where.body,
    fn_silu.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with every buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceWindow in
set_option maxRecDepth 8192 in
set_option maxHeartbeats 4000000 in
/-- The two spellings are one list: a typed reference's builder is the plain builder at its buffer, the function moved
    along the buffer's type, which at a literal buffer is the identity. -/
theorem ops_eq : (ops : List (HloOp τ sig (Elt F))) = opsP := rfl

/-- The reference's concatenation of two index columns is the named one. -/
theorem concat2_fun :
    ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
      = Cert.Moe.concat2 (F := F) := rfl

attribute [local irreducible] Host.reduce Host.reduceWindow Host.gather Host.scatterAdd in
set_option maxRecDepth 8192 in
set_option maxHeartbeats 4000000 in
/-- The fold read at the result buffer: routing, expert network, combine. -/
theorem out_eq (V : Valuation τ sig (Elt F)) :
    after ops V (main_v64 : DevRef τ sig)
      = Cert.Moe.combine (V (main_arg1 : DevRef τ sig)) (V (main_arg5 : DevRef τ sig))
          (Cert.Moe.mlpRef (Cert.Moe.xe (V (main_arg0 : DevRef τ sig)) (V (main_arg5 : DevRef τ sig)))
            (V (main_arg2 : DevRef τ sig)) (V (main_arg3 : DevRef τ sig)) (V (main_arg4 : DevRef τ sig))) := by
  rw [ops_eq]
  simp only [opsP, concat2_fun]
  after_results_simp
  rfl

set_option maxRecDepth 8192 in
set_option maxHeartbeats 4000000 in
/-- No operation writes an argument buffer. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  rw [ops_eq]
  refine ⟨?_, ?_, ?_, ?_, ?_, ?_⟩ <;> after_results_simp

/-- The run, read: the result buffer at the combine of the batched network of the routed tokens, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = Cert.Moe.combine (m ((c.tc : Thread nD τ).loc main_arg1)) (m ((c.tc : Thread nD τ).loc main_arg5)) (Cert.Moe.mlpRef (Cert.Moe.xe (m ((c.tc : Thread nD τ).loc main_arg0)) (m ((c.tc : Thread nD τ).loc main_arg5))) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v64).trans (out_eq _),
        (h c main_arg0).trans (args_eq _).1,
        (h c main_arg1).trans (args_eq _).2.1,
        (h c main_arg2).trans (args_eq _).2.2.1,
        (h c main_arg3).trans (args_eq _).2.2.2.1,
        (h c main_arg4).trans (args_eq _).2.2.2.2.1,
        (h c main_arg5).trans (args_eq _).2.2.2.2.2⟩)
    (run_all m ρ)

end Cert.ReferenceIdeal.RefRun

end
-- ==== Proof.KOps.lean ====
/-
  The kernel program's outlined host stretches (the one-hot, the running count, the two selects), respelt over the
  plain builders at the same buffers: the lists the later modules read the host lines through.
-/
import proofs.«111336_j12481174962624_1_alg».proof.Proof.Gen.KernelIdeal.Launch
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo

/-! ## The outlined stretches over the plain builders

The generated lists spell the operations of the functions jax outlined (the one-hot, the running count, the two
selects) over typed references. A typed reference's builder is the plain builder at its buffer with the function moved
along the buffer's type, which at a literal buffer is the identity: each list below is the generated one. -/

section Plain

variable {F : FTy → Type} [FloatOps F]

/-- The one-hot's six operations. -/
abbrev oneHotP : List (HloOp τ sig (Elt F)) :=
  [ StableHlo.unary main_v0 main_call0_v0 ((broadcastInDim S8192x1 ![0] bcast_S8192_S8192x1_0) : (⟨S8192, .i32⟩ : BufTy).Contents (Elt F) → (⟨S8192x1, .i32⟩ : BufTy).Contents (Elt F)),
    StableHlo.nullary main_call0_v1 ((iotaInDim S1x64 32 1) : (⟨S1x64, .i32⟩ : BufTy).Contents (Elt F)),
    StableHlo.unary main_call0_v0 main_call0_v2 ((broadcastInDim S8192x64 ![0, 1] bcast_S8192x1_S8192x64_0_1) : (⟨S8192x1, .i32⟩ : BufTy).Contents (Elt F) → (⟨S8192x64, .i32⟩ : BufTy).Contents (Elt F)),
    StableHlo.unary main_call0_v1 main_call0_v3 ((broadcastInDim S8192x64 ![0, 1] bcast_S1x64_S8192x64_0_1) : (⟨S1x64, .i32⟩ : BufTy).Contents (Elt F) → (⟨S8192x64, .i32⟩ : BufTy).Contents (Elt F)),
    StableHlo.binary main_call0_v2 main_call0_v3 main_call0_v4 ((cmpi .eq) : (⟨S8192x64, .i32⟩ : BufTy).Contents (Elt F) → (⟨S8192x64, .i32⟩ : BufTy).Contents (Elt F) → (⟨S8192x64, .i1⟩ : BufTy).Contents (Elt F)),
    StableHlo.unary main_call0_v4 main_v4 ((extui 32 · natLt_1_32) : (⟨S8192x64, .i1⟩ : BufTy).Contents (Elt F) → (⟨S8192x64, .i32⟩ : BufTy).Contents (Elt F)) ]

/-- The running count's three operations. -/
abbrev cumsumP : List (HloOp τ sig (Elt F)) :=
  [ StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v4 main_call1_call0_v0 main_v5 ((fun x v => Host.reduceWindow IntOp.addi ![8192, 1] ![1, 1] ![8191, 0] ![0, 0] x v reduceWindows_S8192x64_S8192x64_w8192s1p8191_0_w1s1p0_0 h_S_) : (⟨S8192x64, .i32⟩ : BufTy).Contents (Elt F) → (⟨S_, .i32⟩ : BufTy).Contents (Elt F) → (⟨S8192x64, .i32⟩ : BufTy).Contents (Elt F)) ]

/-- The three operations of the select that sends a pair over capacity to the dump row. -/
abbrev slotP : List (HloOp τ sig (Elt F)) :=
  [ StableHlo.unary main_c_2 main_call2_v0 (id : (⟨S_, .i32⟩ : BufTy).Contents (Elt F) → (⟨S_, .i32⟩ : BufTy).Contents (Elt F)),
    StableHlo.unary main_call2_v0 main_call2_v1 ((broadcastInDim S8192 ![] bcast_S_S8192) : (⟨S_, .i32⟩ : BufTy).Contents (Elt F) → (⟨S8192, .i32⟩ : BufTy).Contents (Elt F)),
    StableHlo.ternary main_v11 main_v9 main_call2_v1 main_v12 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]

/-- The three operations of the select that zeroes the weight of a pair over capacity. -/
abbrev wtsP : List (HloOp τ sig (Elt F)) :=
  [ StableHlo.unary main_cst_9 main_call3_v0 (id : (⟨S_, .f32⟩ : BufTy).Contents (Elt F) → (⟨S_, .f32⟩ : BufTy).Contents (Elt F)),
    StableHlo.unary main_call3_v0 main_call3_v1 ((broadcastInDim S8192 ![] bcast_S_S8192) : (⟨S_, .f32⟩ : BufTy).Contents (Elt F) → (⟨S8192, .f32⟩ : BufTy).Contents (Elt F)),
    StableHlo.ternary main_v11 main_v41 main_call3_v1 main_v42 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]

theorem oneHot_eq : (hostOps0_1 : List (HloOp τ sig (Elt F))) = oneHotP := rfl

attribute [local irreducible] Host.reduceWindow in
theorem cumsum_eq : (hostOps0_2 : List (HloOp τ sig (Elt F))) = cumsumP := rfl

theorem slot_eq : (hostOps0_4 : List (HloOp τ sig (Elt F))) = slotP := rfl

theorem wts_eq : (hostOps1_1 : List (HloOp τ sig (Elt F))) = wtsP := rfl

end Plain

end Cert.KernelIdeal.KValue

end
-- ==== Proof.KPre.lean ====
/-
  What the kernel program's host lines leave before the region, in the buffers the region and the later lines read:
  the pairs' experts, tokens, ranks and validity (eflat, tok, pos, valid of the index table), and, as the four window
  arrays, the routed tokens xe and the three weight arrays, each rounded to bf16.
-/
import proofs.«111336_j12481174962624_1_alg».proof.Proof.Gen.KernelIdeal.Frame
import proofs.«111336_j12481174962624_1_alg».proof.Proof.Spec
import proofs.«111336_j12481174962624_1_alg».proof.Proof.KOps
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## What the host lines before the region leave -/

attribute [local irreducible] Host.reduce Host.reduceWindow Host.gather Host.scatterAdd in
set_option maxRecDepth 8192 in
set_option maxHeartbeats 4000000 in
theorem pre_v0 (c : Dev nD) : V m c main_v0 = Cert.Moe.eflat (m ((c : Thread nD τ).loc main_arg5)) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp
  rfl

attribute [local irreducible] Host.reduce Host.reduceWindow Host.gather Host.scatterAdd in
set_option maxRecDepth 8192 in
set_option maxHeartbeats 4000000 in
theorem pre_v3 (c : Dev nD) : V m c main_v3 = Cert.Moe.tok := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp
  rfl

attribute [local irreducible] Host.reduce Host.reduceWindow Host.gather Host.scatterAdd in
set_option maxRecDepth 8192 in
set_option maxHeartbeats 4000000 in
theorem pre_v9 (c : Dev nD) : V m c main_v9 = Cert.Moe.pos (Cert.Moe.eflat (m ((c : Thread nD τ).loc main_arg5))) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp
  rfl

attribute [local irreducible] Host.reduce Host.reduceWindow Host.gather Host.scatterAdd in
set_option maxRecDepth 8192 in
set_option maxHeartbeats 4000000 in
theorem pre_v11 (c : Dev nD) : V m c main_v11 = Cert.Moe.valid (Cert.Moe.eflat (m ((c : Thread nD τ).loc main_arg5))) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp
  rfl

attribute [local irreducible] Host.reduce Host.reduceWindow Host.gather Host.scatterAdd in
set_option maxRecDepth 8192 in
set_option maxHeartbeats 4000000 in
theorem pre_v36 (c : Dev nD) : V m c main_v36 = ((truncf (F := Ideal) .bf16 · bitsLt_bf16_f32) : (⟨S64x256x2048, .f32⟩ : BufTy).Contents (Elt Ideal) → (⟨S64x256x2048, .bf16⟩ : BufTy).Contents (Elt Ideal)) (Cert.Moe.xe (m ((c : Thread nD τ).loc main_arg0)) (m ((c : Thread nD τ).loc main_arg5))) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp
  rfl

theorem pre_v37 (c : Dev nD) : V m c main_v37 = ((truncf (F := Ideal) .bf16 · bitsLt_bf16_f32) : (⟨S64x768x2048, .f32⟩ : BufTy).Contents (Elt Ideal) → (⟨S64x768x2048, .bf16⟩ : BufTy).Contents (Elt Ideal)) (m ((c : Thread nD τ).loc main_arg2)) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp

theorem pre_v38 (c : Dev nD) : V m c main_v38 = ((truncf (F := Ideal) .bf16 · bitsLt_bf16_f32) : (⟨S64x768x2048, .f32⟩ : BufTy).Contents (Elt Ideal) → (⟨S64x768x2048, .bf16⟩ : BufTy).Contents (Elt Ideal)) (m ((c : Thread nD τ).loc main_arg3)) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp

theorem pre_v39 (c : Dev nD) : V m c main_v39 = ((truncf (F := Ideal) .bf16 · bitsLt_bf16_f32) : (⟨S64x2048x768, .f32⟩ : BufTy).Contents (Elt Ideal) → (⟨S64x2048x768, .bf16⟩ : BufTy).Contents (Elt Ideal)) (m ((c : Thread nD τ).loc main_arg4)) := by
  dsimp only [V, V0]
  rw [oneHot_eq, cumsum_eq, slot_eq]
  simp only [hostOps0, oneHotP, cumsumP, hostOps0_3, slotP, hostOps0_5, List.flatten_cons, List.flatten_nil, List.append_nil, List.cons_append, List.nil_append, Cert.Moe.concat2_fun]
  after_results_simp

end Cert.KernelIdeal.KValue

end
-- ==== Proof.LibDotLast.lean ====
/-
  A general lemma file.  Products that contract the LAST axis of both operands (x wᵀ, a Linear layer's weight stored
  [out, in]), read at an element on the extended reals.

  For [M, K] by [N, K] to [M, N] the entry at (a, b) is ∑ c, A (a, c) · B (b, c): as a kernel's matrix product into the
  zero word, and as the host's product.  With a leading batch axis, [G, M, K] by [G, N, K] to [G, M, N], the entry at
  (g, a, b) is ∑ c, A (g, a, c) · B (g, b, c).  Each is the generic sum over the record's contraction index, re-indexed
  along its one contracted coordinate.

  Then the two casts a gridded kernel's body puts around its matrices (a [1, A, B] block viewed [A, B], and back), read
  at an element; and a gated two-layer network on matrices, (g · logistic g · u) dᵀ with g = x gateᵀ and u = x upᵀ, the
  middle value rounded through bf16, read at an element as the plain double sum (swiglu_block).
-/
import Idealize.ShloMosaic.PureOps.Ideal.Laws
import Idealize.ShloMosaic.Lib.ValueIdx
import Idealize.ShloMosaic.Lib.Pipeline.Value

noncomputable section

namespace Cert.Lib.DotLast

open Idealize.ShloMosaic Idealize.ShloMosaic.ValueIdx

variable {G M N K : Nat}

/-- The left operand's index of x wᵀ at output (a, b) and contracted coordinate c is (a, c). -/
theorem nt_lhsIdx (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
  have c2 := contrEquiv1_symm_val
    (⟨[1], [1], [0], [0], [], [], w⟩ : DotDims ⟨2, ![M, K]⟩ ⟨2, ![N, K]⟩ ⟨2, ![M, N]⟩) K rfl rfl c
  funext ax; apply Fin.ext
  match ax with
  | ⟨0, _⟩ => simp [DotDims.lhsIdx]; rfl
  | ⟨1, _⟩ => simp [DotDims.lhsIdx]; exact c2

/-- The right operand's is (b, c). -/
theorem nt_rhsIdx (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  funext ax; apply Fin.ext
  match ax with
  | ⟨0, _⟩ => simp [DotDims.rhsIdx]; rfl
  | ⟨1, _⟩ => simp [DotDims.rhsIdx]; exact c2

/-- A kernel's x wᵀ into the zero word, at (a, b). -/
theorem matmul_nt_zero_apply {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    matmul (⟨[1], [1], [0], [0], [], [], w⟩ : DotDims _ _ _) prec A B (constant ⟨2, ![M, N]⟩ .f32 0x00000000#32) (ix2 a b)
      = ∑ c : Fin K, A (ix2 a c) * B (ix2 b c) := by
  show FloatOps.matmul _ prec A B (constant ⟨2, ![M, N]⟩ .f32 0x00000000#32) (ix2 a b) = _
  rw [Ideal.matmul_constant_zero_apply,
    ← Equiv.sum_comp (contrEquiv1 (⟨[1], [1], [0], [0], [], [], w⟩ : DotDims _ _ _) K rfl rfl).symm]
  refine Finset.sum_congr rfl fun c _ => ?_
  rw [nt_lhsIdx, nt_rhsIdx]

/-- The left operand's index of the batched x wᵀ at output (g, a, b) and contracted coordinate c is (g, a, c). -/
theorem bnt_lhsIdx (w : DotDims.WF ⟨3, ![G, M, K]⟩ ⟨3, ![G, N, K]⟩ ⟨3, ![G, M, N]⟩ [2] [2] [1] [1] [0] [0])
    (g : Fin G) (a : Fin M) (b : Fin N) (c : Fin K) :
    (⟨[2], [2], [1], [1], [0], [0], w⟩ : DotDims ⟨3, ![G, M, K]⟩ ⟨3, ![G, N, K]⟩ ⟨3, ![G, M, N]⟩).lhsIdx (ix3 g a b)
      ((contrEquiv1 _ K rfl rfl).symm c) = ix3 g a c := by
  have c3 := contrEquiv1_symm_val
    (⟨[2], [2], [1], [1], [0], [0], w⟩ : DotDims ⟨3, ![G, M, K]⟩ ⟨3, ![G, N, K]⟩ ⟨3, ![G, M, N]⟩) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- The right operand's is (g, b, c). -/
theorem bnt_rhsIdx (w : DotDims.WF ⟨3, ![G, M, K]⟩ ⟨3, ![G, N, K]⟩ ⟨3, ![G, M, N]⟩ [2] [2] [1] [1] [0] [0])
    (g : Fin G) (a : Fin M) (b : Fin N) (c : Fin K) :
    (⟨[2], [2], [1], [1], [0], [0], w⟩ : DotDims ⟨3, ![G, M, K]⟩ ⟨3, ![G, N, K]⟩ ⟨3, ![G, M, N]⟩).rhsIdx (ix3 g a b)
      ((contrEquiv1 _ K rfl rfl).symm c) = ix3 g b c := by
  have c3 := contrEquiv1_symm_val
    (⟨[2], [2], [1], [1], [0], [0], w⟩ : DotDims ⟨3, ![G, M, K]⟩ ⟨3, ![G, N, K]⟩ ⟨3, ![G, M, N]⟩) K rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The host's batched x wᵀ, at (g, a, b). -/
theorem dotGeneral_bnt_apply {φ₁ φ₂ : FTy}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂)
    (g : Fin G) (a : Fin M) (b : Fin N) :
    Host.dotGeneral (⟨[2], [2], [1], [1], [0], [0], w⟩ : DotDims _ _ _) prec A B (ix3 g a b)
      = ∑ c : Fin K, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) K rfl rfl).symm]
  refine Finset.sum_congr rfl fun c _ => ?_
  rw [bnt_lhsIdx, bnt_rhsIdx]

/-- A [1, A, B] block viewed [A, B] reads (a, b) at (0, a, b). -/
theorem drop1_apply {α : Type} {A B : Nat} (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 (0 : Fin 1) a b) :=
  shapeCast_apply x h (ix2 a b) (ix3 (0 : Fin 1) a b) (by
    rw [Shape.rowMajor_val_three, Shape.rowMajor_val_two]
    show ((0 : ℕ) * A + a.val) * B + b.val = a.val * B + b.val
    simp)

/-- An [A, B] value stored as a [1, A, B] block reads (0, a, b) at (a, b). -/
theorem add1_apply {α : Type} {A B : Nat} (y : (⟨2, ![A, B]⟩ : Shape).Idx → α)
    (h : (⟨2, ![A, B]⟩ : Shape).ShapeCasts ⟨3, ![1, A, B]⟩) (a : Fin A) (b : Fin B) :
    shapeCast ⟨3, ![1, A, B]⟩ y h (ix3 (0 : Fin 1) a b) = y (ix2 a b) :=
  shapeCast_apply y h (ix3 (0 : Fin 1) a b) (ix2 a b) (by
    rw [Shape.rowMajor_val_three, Shape.rowMajor_val_two]
    show a.val * B + b.val = ((0 : ℕ) * A + a.val) * B + b.val
    simp)

/-- One expert's network on matrices: x [M, K], gate and up [N, K], down [H, N], each product x wᵀ into the zero word,
    the middle value rounded through bf16; at (a, b). -/
theorem swiglu_block {M K N H : Nat}
    (w1 : DotDims.WF ⟨2, ![M, K]⟩ ⟨2, ![N, K]⟩ ⟨2, ![M, N]⟩ [1] [1] [0] [0] [] [])
    (w2 : DotDims.WF ⟨2, ![M, N]⟩ ⟨2, ![H, N]⟩ ⟨2, ![M, H]⟩ [1] [1] [0] [0] [] [])
    (hb : FTy.bits .bf16 < FTy.bits .f32)
    (A : FVec Ideal ⟨2, ![M, K]⟩ .bf16) (Bg Bu : FVec Ideal ⟨2, ![N, K]⟩ .bf16) (Bd : FVec Ideal ⟨2, ![H, N]⟩ .bf16)
    (a : Fin M) (b : Fin H) :
    matmul (⟨[1], [1], [0], [0], [], [], w2⟩ : DotDims ⟨2, ![M, N]⟩ ⟨2, ![H, N]⟩ ⟨2, ![M, H]⟩) none
        (truncf .bf16
          (mulf
            (mulf (matmul (⟨[1], [1], [0], [0], [], [], w1⟩ : DotDims ⟨2, ![M, K]⟩ ⟨2, ![N, K]⟩ ⟨2, ![M, N]⟩) none A Bg (constant ⟨2, ![M, N]⟩ .f32 0x00000000#32))
              (logistic (matmul (⟨[1], [1], [0], [0], [], [], w1⟩ : DotDims ⟨2, ![M, K]⟩ ⟨2, ![N, K]⟩ ⟨2, ![M, N]⟩) none A Bg (constant ⟨2, ![M, N]⟩ .f32 0x00000000#32))))
            (matmul (⟨[1], [1], [0], [0], [], [], w1⟩ : DotDims ⟨2, ![M, K]⟩ ⟨2, ![N, K]⟩ ⟨2, ![M, N]⟩) none A Bu (constant ⟨2, ![M, N]⟩ .f32 0x00000000#32)))
          hb)
        Bd (constant ⟨2, ![M, H]⟩ .f32 0x00000000#32) (ix2 a b)
      = ∑ i : Fin N, ((∑ k : Fin K, A (ix2 a k) * Bg (ix2 i k)) * Ideal.logistic (∑ k : Fin K, A (ix2 a k) * Bg (ix2 i k))
            * (∑ k : Fin K, A (ix2 a k) * Bu (ix2 i k))) * Bd (ix2 b i) := by
  rw [matmul_nt_zero_apply]
  refine Finset.sum_congr rfl fun i _ => ?_
  congr 1
  show matmul (⟨[1], [1], [0], [0], [], [], w1⟩ : DotDims ⟨2, ![M, K]⟩ ⟨2, ![N, K]⟩ ⟨2, ![M, N]⟩) none A Bg (constant ⟨2, ![M, N]⟩ .f32 0x00000000#32) (ix2 a i)
      * Ideal.logistic (matmul (⟨[1], [1], [0], [0], [], [], w1⟩ : DotDims ⟨2, ![M, K]⟩ ⟨2, ![N, K]⟩ ⟨2, ![M, N]⟩) none A Bg (constant ⟨2, ![M, N]⟩ .f32 0x00000000#32) (ix2 a i))
      * matmul (⟨[1], [1], [0], [0], [], [], w1⟩ : DotDims ⟨2, ![M, K]⟩ ⟨2, ![N, K]⟩ ⟨2, ![M, N]⟩) none A Bu (constant ⟨2, ![M, N]⟩ .f32 0x00000000#32) (ix2 a i) = _
  rw [matmul_nt_zero_apply, matmul_nt_zero_apply]

end Cert.Lib.DotLast

end
-- ==== Proof.Mlp.lean ====
/-
  The expert network at one element, and that both programs compute it.

  For expert e, row c and output column h,
    y (e, c, h) = ∑ i, (g · logistic g · u) · d (e, h, i),   g = ∑ k, x (e, c, k) · gate (e, i, k),   u = ∑ k, x (e, c, k) · up (e, i, k),
  with logistic g = 1 / (1 + e^(-g)) on the extended reals (mlpAt).

  The reference computes it as three products batched over the experts, its silu spelled t · (1 / (1 + e^(-t))) with
  the word 0x3F800000, which is the number 1 (mlpRef_apply).  The kernel computes it expert by expert: its body casts
  the leading unit axis of each block away, takes the same three products into zero accumulators, rounds through
  bf16 (the identity here) and casts the unit axis back (pay_apply, for a block whose inputs are expert e's rows).
  No law of arithmetic is used: the two are the same sums of the same products in the same order.
-/
import proofs.«111336_j12481174962624_1_alg».proof.Proof.Gen.KernelIdeal.Skeleton
import proofs.«111336_j12481174962624_1_alg».proof.Proof.Gen.ReferenceIdeal
import proofs.«111336_j12481174962624_1_alg».proof.Proof.Spec
import proofs.«111336_j12481174962624_1_alg».proof.Proof.LibDotLast
import Idealize.ShloMosaic.Lib.Pipeline.Value

noncomputable section

namespace Cert.Moe

open Idealize.ShloMosaic Idealize.ShloMosaic.ValueIdx Cert.Lib.DotLast

/-- The word 0x3F800000 is the number 1. -/
theorem one_word : Ideal.ofBits .f32 0x3F800000#32 = 1 := by
  simp [Ideal.ofBits, Ideal.ieee, -EReal.coe_mul]; norm_num

/-- x wᵀ of expert e at row c and column i. -/
def upAt (X : (⟨3, ![64, 256, 2048]⟩ : Shape).Idx → EReal) (W : (⟨3, ![64, 768, 2048]⟩ : Shape).Idx → EReal)
    (e : Fin 64) (c : Fin 256) (i : Fin 768) : EReal :=
  ∑ k : Fin 2048, X (ix3 e c k) * W (ix3 e i k)

/-- The expert network of expert e at row c and column h. -/
def mlpAt (X : (⟨3, ![64, 256, 2048]⟩ : Shape).Idx → EReal) (GW UW : (⟨3, ![64, 768, 2048]⟩ : Shape).Idx → EReal)
    (DW : (⟨3, ![64, 2048, 768]⟩ : Shape).Idx → EReal) (e : Fin 64) (c : Fin 256) (h : Fin 2048) : EReal :=
  ∑ i : Fin 768, (upAt X GW e c i * Ideal.logistic (upAt X GW e c i) * upAt X UW e c i) * DW (ix3 e h i)

section Reference

open Cert.ReferenceIdeal

theorem upR_apply (X : (⟨S64x256x2048, .f32⟩ : BufTy).Contents (Elt Ideal)) (W : (⟨S64x768x2048, .f32⟩ : BufTy).Contents (Elt Ideal))
    (e : Fin 64) (c : Fin 256) (i : Fin 768) : upR (F := Ideal) X W (ix3 e c i) = upAt X W e c i := by
  unfold upR upAt
  exact dotGeneral_bnt_apply Cert.ReferenceIdeal.Gen.dot_S64x256x2048_S64x768x2048_S64x256x768_2_2_1_1_0_0_wf none X W e c i

/-- The host's expansion of silu is t · logistic t. -/
theorem siluR_apply (x : (⟨S64x256x768, .f32⟩ : BufTy).Contents (Elt Ideal)) (j : S64x256x768.Idx) :
    siluR (F := Ideal) x j = x j * Ideal.logistic (x j) := by
  unfold siluR
  show x j * Ideal.div (Ideal.ofBits .f32 0x3F800000#32) (Ideal.ofBits .f32 0x3F800000#32 + Ideal.exp (-(x j))) = _
  rw [one_word]
  rfl

/-- The reference's batched network, at (e, c, h). -/
theorem mlpRef_apply (X : (⟨S64x256x2048, .f32⟩ : BufTy).Contents (Elt Ideal)) (GW UW : (⟨S64x768x2048, .f32⟩ : BufTy).Contents (Elt Ideal))
    (DW : (⟨S64x2048x768, .f32⟩ : BufTy).Contents (Elt Ideal)) (e : Fin 64) (c : Fin 256) (h : Fin 2048) :
    mlpRef (F := Ideal) X GW UW DW (ix3 e c h) = mlpAt X GW UW DW e c h := by
  unfold mlpRef mlpAt
  refine (dotGeneral_bnt_apply Cert.ReferenceIdeal.Gen.dot_S64x256x768_S64x2048x768_S64x256x2048_2_2_1_1_0_0_wf none _ DW e c h).trans ?_
  refine Finset.sum_congr rfl fun i _ => ?_
  congr 1
  show siluR (upR X GW) (ix3 e c i) * upR X UW (ix3 e c i) = _
  rw [siluR_apply, upR_apply, upR_apply]

end Reference

section Kernel

open Cert.KernelIdeal

/-- The kernel body's stored value at (0, c, h), for a block whose inputs are expert e's rows of x, gate, up and down. -/
theorem pay_apply (x0 : Vec Ideal S1x256x2048 .bf16) (x1 x2 : Vec Ideal S1x768x2048 .bf16) (x3 : Vec Ideal S1x2048x768 .bf16)
    (X : (⟨3, ![64, 256, 2048]⟩ : Shape).Idx → EReal) (GW UW : (⟨3, ![64, 768, 2048]⟩ : Shape).Idx → EReal)
    (DW : (⟨3, ![64, 2048, 768]⟩ : Shape).Idx → EReal) (e : Fin 64)
    (h0 : ∀ (c : Fin 256) (k : Fin 2048), x0 (ix3 (0 : Fin 1) c k) = X (ix3 e c k))
    (h1 : ∀ (i : Fin 768) (k : Fin 2048), x1 (ix3 (0 : Fin 1) i k) = GW (ix3 e i k))
    (h2 : ∀ (i : Fin 768) (k : Fin 2048), x2 (ix3 (0 : Fin 1) i k) = UW (ix3 e i k))
    (h3 : ∀ (h : Fin 2048) (i : Fin 768), x3 (ix3 (0 : Fin 1) h i) = DW (ix3 e h i))
    (c : Fin 256) (h : Fin 2048) :
    Cert.KernelIdeal.Gen.k0_pay1 (F := Ideal) x0 x1 x2 x3 (ix3 (0 : Fin 1) c h) = mlpAt X GW UW DW e c h := by
  unfold Cert.KernelIdeal.Gen.k0_pay1
  refine (add1_apply _ _ c h).trans ?_
  refine (swiglu_block _ _ _ _ _ _ _ c h).trans ?_
  unfold mlpAt upAt
  refine Finset.sum_congr rfl fun i _ => ?_
  simp only [drop1_apply, h0, h1, h2, h3]

end Kernel

end Cert.Moe

end
-- ==== Proof.KRegion.lean ====
/-
  The region has one grid point per expert.  Every window's block at point t is block (t, 0, 0) of its array: expert
  t's rows.  So what point t writes back is expert t's network of expert t's rows (pay_apply), which is block t of the
  reference's batched network mlpRef of the same arrays; the 64 blocks tile the output array, so the array ends
  holding mlpRef (xe hs idx) gate up down.
-/
import proofs.«111336_j12481174962624_1_alg».proof.Proof.Gen.KernelIdeal.Frame
import proofs.«111336_j12481174962624_1_alg».proof.Proof.Spec
import proofs.«111336_j12481174962624_1_alg».proof.Proof.Mlp
import proofs.«111336_j12481174962624_1_alg».proof.Proof.KPre
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## The region: point t is expert t -/

theorem hz3 : (![0, 0, 0] : Fin 3 → Nat) = fun _ => 0 := funext fun a => by fin_cases a <;> rfl

/-- The printed index maps, decided over the grid: every window's block at point t is block (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The expert of grid point t. -/
def ex (t : Fin cfg0.N) : Fin 64 := ⟨t.val, lt_of_lt_of_eq t.isLt N_0⟩

/-- Window 0's block at point t is expert t's rows of the routed tokens. -/
theorem iblk0_apply (c : Dev nD) (t : Fin cfg0.N) (a : Fin 256) (k : Fin 2048) :
    (iblk m c 0 t : Vec Ideal S1x256x2048 .bf16) (ix3 (0 : Fin 1) a k)
      = (Cert.Moe.xe (m ((c : Thread nD τ).loc main_arg0)) (m ((c : Thread nD τ).loc main_arg5)) : (⟨3, ![64, 256, 2048]⟩ : Shape).Idx → EReal) (ix3 (ex t) a k) := by
  obtain ⟨⟨e0, e1, e2⟩, -⟩ := idx_facts t
  unfold iblk
  rw [View.read_apply]
  show V m c main_v36 _ = _
  rw [pre_v36]
  show (Cert.Moe.xe (m ((c : Thread nD τ).loc main_arg0)) (m ((c : Thread nD τ).loc main_arg5)) : (⟨3, ![64, 256, 2048]⟩ : Shape).Idx → EReal) _ = _
  congr 1
  funext ax
  apply Fin.ext
  match ax with
  | ⟨0, _⟩ => show win0_0.index t (0 : Fin 3) * 1 + 1 * ((0 : Fin 1) : ℕ) = t.val; rw [e0]; simp
  | ⟨1, _⟩ => show win0_0.index t (1 : Fin 3) * 256 + 1 * a.val = a.val; rw [e1]; omega
  | ⟨2, _⟩ => show win0_0.index t (2 : Fin 3) * 2048 + 1 * k.val = k.val; rw [e2]; omega

/-- Window 1's block at point t is expert t's gate weights. -/
theorem iblk1_apply (c : Dev nD) (t : Fin cfg0.N) (i : Fin 768) (k : Fin 2048) :
    (iblk m c 1 t : Vec Ideal S1x768x2048 .bf16) (ix3 (0 : Fin 1) i k)
      = ((m ((c : Thread nD τ).loc main_arg2)) : (⟨3, ![64, 768, 2048]⟩ : Shape).Idx → EReal) (ix3 (ex t) i k) := by
  obtain ⟨-, ⟨e0, e1, e2⟩, -⟩ := idx_facts t
  unfold iblk
  rw [View.read_apply]
  show V m c main_v37 _ = _
  rw [pre_v37]
  show ((m ((c : Thread nD τ).loc main_arg2)) : (⟨3, ![64, 768, 2048]⟩ : Shape).Idx → EReal) _ = _
  congr 1
  funext ax
  apply Fin.ext
  match ax with
  | ⟨0, _⟩ => show win0_1.index t (0 : Fin 3) * 1 + 1 * ((0 : Fin 1) : ℕ) = t.val; rw [e0]; simp
  | ⟨1, _⟩ => show win0_1.index t (1 : Fin 3) * 768 + 1 * i.val = i.val; rw [e1]; omega
  | ⟨2, _⟩ => show win0_1.index t (2 : Fin 3) * 2048 + 1 * k.val = k.val; rw [e2]; omega

/-- Window 2's block at point t is expert t's up weights. -/
theorem iblk2_apply (c : Dev nD) (t : Fin cfg0.N) (i : Fin 768) (k : Fin 2048) :
    (iblk m c 2 t : Vec Ideal S1x768x2048 .bf16) (ix3 (0 : Fin 1) i k)
      = ((m ((c : Thread nD τ).loc main_arg3)) : (⟨3, ![64, 768, 2048]⟩ : Shape).Idx → EReal) (ix3 (ex t) i k) := by
  obtain ⟨-, -, ⟨e0, e1, e2⟩, -⟩ := idx_facts t
  unfold iblk
  rw [View.read_apply]
  show V m c main_v38 _ = _
  rw [pre_v38]
  show ((m ((c : Thread nD τ).loc main_arg3)) : (⟨3, ![64, 768, 2048]⟩ : Shape).Idx → EReal) _ = _
  congr 1
  funext ax
  apply Fin.ext
  match ax with
  | ⟨0, _⟩ => show win0_2.index t (0 : Fin 3) * 1 + 1 * ((0 : Fin 1) : ℕ) = t.val; rw [e0]; simp
  | ⟨1, _⟩ => show win0_2.index t (1 : Fin 3) * 768 + 1 * i.val = i.val; rw [e1]; omega
  | ⟨2, _⟩ => show win0_2.index t (2 : Fin 3) * 2048 + 1 * k.val = k.val; rw [e2]; omega

/-- Window 3's block at point t is expert t's down weights. -/
theorem iblk3_apply (c : Dev nD) (t : Fin cfg0.N) (h : Fin 2048) (i : Fin 768) :
    (iblk m c 3 t : Vec Ideal S1x2048x768 .bf16) (ix3 (0 : Fin 1) h i)
      = ((m ((c : Thread nD τ).loc main_arg4)) : (⟨3, ![64, 2048, 768]⟩ : Shape).Idx → EReal) (ix3 (ex t) h i) := by
  obtain ⟨-, -, -, ⟨e0, e1, e2⟩, -⟩ := idx_facts t
  unfold iblk
  rw [View.read_apply]
  show V m c main_v39 _ = _
  rw [pre_v39]
  show ((m ((c : Thread nD τ).loc main_arg4)) : (⟨3, ![64, 2048, 768]⟩ : Shape).Idx → EReal) _ = _
  congr 1
  funext ax
  apply Fin.ext
  match ax with
  | ⟨0, _⟩ => show win0_3.index t (0 : Fin 3) * 1 + 1 * ((0 : Fin 1) : ℕ) = t.val; rw [e0]; simp
  | ⟨1, _⟩ => show win0_3.index t (1 : Fin 3) * 2048 + 1 * h.val = h.val; rw [e1]; omega
  | ⟨2, _⟩ => show win0_3.index t (2 : Fin 3) * 768 + 1 * i.val = i.val; rw [e2]; omega

/-- What the output array ends holding: the reference's batched network of the routed tokens and the weights. -/
def G4 (c : Dev nD) : Buf (Elt Ideal) ((c : Thread nD τ).loc main_v40) :=
  Cert.Moe.mlpRef (F := Ideal) (Cert.Moe.xe (m ((c : Thread nD τ).loc main_arg0)) (m ((c : Thread nD τ).loc main_arg5))) (m ((c : Thread nD τ).loc main_arg2)) (m ((c : Thread nD τ).loc main_arg3)) (m ((c : Thread nD τ).loc main_arg4))

/-- The body's stored value at an index of its block is G4 at the index of the array whose first coordinate is the
    point and whose other two are the block's. -/
theorem stored_eq (c : Dev nD) (t : Fin cfg0.N) (y : S1x256x2048.Idx) (i : (⟨3, ![64, 256, 2048]⟩ : Shape).Idx)
    (hi0 : (i 0).val = t.val) (hi1 : (i 1).val = (y 1).val) (hi2 : (i 2).val = (y 2).val) :
    k0_pay1 (F := Ideal) (iblk m c 0 t) (iblk m c 1 t) (iblk m c 2 t) (iblk m c 3 t) y
      = (G4 m c : (⟨3, ![64, 256, 2048]⟩ : Shape).Idx → EReal) i := by
  obtain ⟨y0, a, b, rfl⟩ : ∃ (y0 : Fin 1) (a : Fin 256) (b : Fin 2048), y = ix3 y0 a b := ⟨y 0, y 1, y 2, eq_ix3 y⟩
  obtain rfl : y0 = 0 := Subsingleton.elim _ _
  obtain ⟨e', a', b', rfl⟩ : ∃ (e' : Fin 64) (a' : Fin 256) (b' : Fin 2048), i = ix3 e' a' b' := ⟨i 0, i 1, i 2, eq_ix3 i⟩
  obtain rfl : e' = ex t := Fin.ext hi0
  obtain rfl : a' = a := Fin.ext hi1
  obtain rfl : b' = b := Fin.ext hi2
  unfold G4
  rw [Cert.Moe.mlpRef_apply]
  exact Cert.Moe.pay_apply (iblk m c 0 t) (iblk m c 1 t) (iblk m c 2 t) (iblk m c 3 t)
    (Cert.Moe.xe (m ((c : Thread nD τ).loc main_arg0)) (m ((c : Thread nD τ).loc main_arg5))) (m ((c : Thread nD τ).loc main_arg2)) (m ((c : Thread nD τ).loc main_arg3)) (m ((c : Thread nD τ).loc main_arg4)) (ex t)
    (iblk0_apply m c t) (iblk1_apply m c t) (iblk2_apply m c t) (iblk3_apply m c t) a' b'

/-- WHAT POINT t WRITES BACK is block t of G4. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz3]
  simp only [View.ld_unit_zero (S := S1x256x2048) hz3, View.ld_unit_zero (S := S1x768x2048) hz3, View.ld_unit_zero (S := S1x2048x768) hz3]
  obtain ⟨-, -, -, -, e0, e1, e2⟩ := idx_facts t
  funext j
  show k0_pay1 (F := Ideal) (iblk m c 0 t) (iblk m c 1 t) (iblk m c 2 t) (iblk m c 3 t) j = G4 m c (((cfg0.win 4).blk t).view.emb j)
  refine stored_eq m c t j _ ?_ ?_ ?_
  · show win0_4.index t (0 : Fin 3) * 1 + 1 * (j 0).val = t.val
    have hj : (j 0).val < 1 := (j 0).isLt
    omega
  · show win0_4.index t (1 : Fin 3) * 256 + 1 * (j 1).val = (j 1).val
    omega
  · show win0_4.index t (2 : Fin 3) * 2048 + 1 * (j 2).val = (j 2).val
    omega

/-- The 64 blocks tile the array, so it ends holding G4. -/
theorem final4 (c : Dev nD) : (dats m 0 c).arrAt 4 cfg0.N = G4 m c :=
  (dats m 0 c).arrAt_eq_of_cover 4 (G4 m c) (fun t _ => flushed4_eq m c t) fun i => by
    have h0 : (i 0 : Nat) < 64 := (i 0).isLt
    have h1 : (i 1 : Nat) < 256 := (i 1).isLt
    have h2 : (i 2 : Nat) < 2048 := (i 2).isLt
    have hN : (i 0 : Nat) < cfg0.N := by rw [show cfg0.N = 64 from N_0]; exact h0
    obtain ⟨-, -, -, -, e0, e1, e2⟩ := idx_facts ⟨(i 0 : Nat), hN⟩
    have e0' : win0_4.index ⟨(i 0 : Nat), hN⟩ (0 : Fin 3) = (i 0 : Nat) := e0
    refine ⟨⟨(i 0 : Nat), hN⟩, flush0_4 _, ?_⟩
    show i ∈ ((View.whole main_v40).slice (win0_4.rect ⟨(i 0 : Nat), hN⟩)).set
    rw [View.set_slice_whole, Rect.mem_set_unit]
    intro a
    match a with
    | ⟨0, _⟩ => show win0_4.index ⟨(i 0 : Nat), hN⟩ (0 : Fin 3) * 1 ≤ (i 0 : Nat) ∧ (i 0 : Nat) < win0_4.index ⟨(i 0 : Nat), hN⟩ (0 : Fin 3) * 1 + 1
                rw [e0']; omega
    | ⟨1, _⟩ => show win0_4.index ⟨(i 0 : Nat), hN⟩ (1 : Fin 3) * 256 ≤ (i 1 : Nat) ∧ (i 1 : Nat) < win0_4.index ⟨(i 0 : Nat), hN⟩ (1 : Fin 3) * 256 + 256
                rw [e1]; omega
    | ⟨2, _⟩ => show win0_4.index ⟨(i 0 : Nat), hN⟩ (2 : Fin 3) * 2048 ≤ (i 2 : Nat) ∧ (i 2 : Nat) < win0_4.index ⟨(i 0 : Nat), hN⟩ (2 : Fin 3) * 2048 + 2048
                rw [e2]; omega

end Cert.KernelIdeal.KValue

end
-- ==== Proof.KTail.lean ====
/-
  The lines after the region are the combine over the values found in the buffers the host lines before the region
  wrote (tail), which no later line and no window of the region has changed, and over the region's output array.  So
  the kernel program ends with its result at combine w idx (mlpRef (xe hs idx) gate up down), its arguments unchanged.
-/
import proofs.«111336_j12481174962624_1_alg».proof.Proof.Gen.KernelIdeal.Frame
import proofs.«111336_j12481174962624_1_alg».proof.Proof.Spec
import proofs.«111336_j12481174962624_1_alg».proof.Proof.KOps
import proofs.«111336_j12481174962624_1_alg».proof.Proof.KPre
import proofs.«111336_j12481174962624_1_alg».proof.Proof.KRegion
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## The lines after the region -/

attribute [local irreducible] Host.gather Host.scatterAdd in
set_option maxRecDepth 8192 in
set_option maxHeartbeats 4000000 in
/-- Over any contents W of the buffers, the lines after the region leave in the result buffer the combine of the six
    values they read. -/
theorem tail_read (W : Valuation τ sig (Elt Ideal)) :
    after (List.flatten [hostOps1, hostOps1_1, hostOps1_2]) W (main_v64 : DevRef τ sig)
      = Cert.Moe.tail (W (main_arg1 : DevRef τ sig)) (W (main_v0 : DevRef τ sig)) (W (main_v3 : DevRef τ sig))
          (W (main_v9 : DevRef τ sig)) (W (main_v11 : DevRef τ sig)) (W (main_v40 : DevRef τ sig)) := by
  rw [wts_eq]
  simp only [hostOps1, wtsP, hostOps1_2, List.flatten_cons, List.flatten_nil, List.append_nil, List.cons_append, List.nil_append, Cert.Moe.concat2_fun]
  after_results_simp
  rfl

/-- The result buffer after the run. -/
theorem result_eq (c : Dev nD) :
    Pipeline.afterTail₀ cfgs (dats m) 0 (V0 m) [hostOps1, hostOps1_1, hostOps1_2] c main_v64
      = Cert.Moe.combine (m ((c : Thread nD τ).loc main_arg1)) (m ((c : Thread nD τ).loc main_arg5)) (G4 m c) := by
  unfold Pipeline.afterTail₀
  rw [tail_read]
  have h40 : Pipeline.withArrays (cfgs 0).spec c (V0 m c) (fun w => (dats m 0 c).arrAt w (cfgs 0).N) (Proc.devRef .tc main_v40)
      = (dats m 0 c).arrAt 4 cfg0.N := Pipeline.withArrays_arr spec0 launch0.win.arr_inj c _ _ 4
  rw [h40, final4,
    Pipeline.withArrays_of_ne _ c (V0 m c) _ main_arg1 (by exact (by decide : ∀ w, Pipeline.arrRef spec0 w ≠ main_arg1)),
    Pipeline.withArrays_of_ne _ c (V0 m c) _ main_v0 (by exact (by decide : ∀ w, Pipeline.arrRef spec0 w ≠ main_v0)),
    Pipeline.withArrays_of_ne _ c (V0 m c) _ main_v3 (by exact (by decide : ∀ w, Pipeline.arrRef spec0 w ≠ main_v3)),
    Pipeline.withArrays_of_ne _ c (V0 m c) _ main_v9 (by exact (by decide : ∀ w, Pipeline.arrRef spec0 w ≠ main_v9)),
    Pipeline.withArrays_of_ne _ c (V0 m c) _ main_v11 (by exact (by decide : ∀ w, Pipeline.arrRef spec0 w ≠ main_v11))]
  show Cert.Moe.tail (V m c main_arg1) (V m c main_v0) (V m c main_v3) (V m c main_v9) (V m c main_v11) (G4 m c) = _
  rw [V_main_arg1, pre_v0, pre_v3, pre_v9, pre_v11]
  rfl

/-! ## The run, read -/

/-- Every weakly fair execution of the kernel program ends with the result buffer at the combine of the batched
    network of the routed tokens, and the arguments unchanged. -/
theorem run : θ_run defs (onTc (τ := τ) (main (F := Ideal))) ⟨m, fun _ => 0, ρ⟩ fun r => ∀ c : Dev nD,
      r.2.mem ((c.tc : Thread nD τ).loc main_v64) = Cert.Moe.combine (m ((c : Thread nD τ).loc main_arg1)) (m ((c : Thread nD τ).loc main_arg5)) (G4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v64 (Pipeline.mem_restRefs_of main_v64 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KValue

end
-- ==== Proof.lean ====
/-
  The certificate of a mixture-of-experts layer: a Pallas kernel for the experts' SwiGLU network, inside the same
  token routing and the same weighted combine as its jnp reference.

  Both programs route the 8192 (token, choice) pairs to the 64 experts' 256-row buffers (xe), and both add each
  expert's output rows, weighted, back into the tokens (combine): the same host operations, named once and never opened.
  Between the two the reference takes three products batched over the experts; the kernel runs one grid point per
  expert on bf16 copies of the routed tokens and of the weights, with f32 accumulation.  On the extended reals the
  bf16 copies are the arrays themselves, a product into a zero accumulator is the host's product, and the kernel's
  logistic is the reference's 1 / (1 + e^(-t)); so point t writes expert t's block of the reference's result, the 64
  blocks tile the array, and both programs end at  combine w idx (mlpRef (xe hs idx) gate up down).
  No law of arithmetic beyond re-indexing a sum along its one coordinate is used, so the precondition is never opened.

  The two kernel programs' frames are the generated class-A frame certificates; the reference's is its run with the
  result dropped; the ideal pass rewrote nothing, so there is nothing to preserve.
-/
import proofs.«111336_j12481174962624_1_alg».proof.Defs
import proofs.«111336_j12481174962624_1_alg».proof.Proof.Gen.Kernel.Frame
import proofs.«111336_j12481174962624_1_alg».proof.Proof.Gen.KernelIdeal.Frame
import proofs.«111336_j12481174962624_1_alg».proof.Proof.Gen.ReferenceIdeal
import proofs.«111336_j12481174962624_1_alg».proof.Proof.Gen.Pre_finite_inputs
import proofs.«111336_j12481174962624_1_alg».proof.Proof.RefRun
import proofs.«111336_j12481174962624_1_alg».proof.Proof.KTail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at the combine of the batched network of the routed tokens; from memories that agree on the
    arguments that is one array. -/
theorem algebraic : Cert.algebraic_KernelIdeal_ReferenceIdeal := by
  intro m ρ m' ρ' _ hagree
  refine ⟨fun c => Cert.Moe.combine (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (Cert.KernelIdeal.KValue.G4 m c),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
